-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x8 : Shape := ⟨2, ![512, 8]⟩
abbrev S8 : Shape := ⟨1, ![8]⟩
abbrev S8x8 : Shape := ⟨2, ![8, 8]⟩
abbrev S8x512 : Shape := ⟨2, ![8, 512]⟩
abbrev S512 : Shape := ⟨1, ![512]⟩
abbrev S512x16 : Shape := ⟨2, ![512, 16]⟩
abbrev S8193x1024 : Shape := ⟨2, ![8193, 1024]⟩
abbrev S1024 : Shape := ⟨1, ![1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x8 : S_.BroadcastsInDim S512x8 (![] : Fin 0 → Fin S512x8.rank)
  reducesTo_S512x8_S_d0_1 : S512x8.ReducesTo [0, 1] S_
  bcast_S_S8 : S_.BroadcastsInDim S8 (![] : Fin 0 → Fin S8.rank)
  reducesTo_S8_S_d0 : S8.ReducesTo [0] S_
  bcast_S_S8x8 : S_.BroadcastsInDim S8x8 (![] : Fin 0 → Fin S8x8.rank)
  reducesTo_S8x8_S_d0_1 : S8x8.ReducesTo [0, 1] S_
  bcast_S_S8x512 : S_.BroadcastsInDim S8x512 (![] : Fin 0 → Fin S8x512.rank)
  reducesTo_S8x512_S_d0_1 : S8x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S8193x1024 : S_.BroadcastsInDim S8193x1024 (![] : Fin 0 → Fin S8193x1024.rank)
  reducesTo_S8193x1024_S_d0_1 : S8193x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S512x16 .f32) (main_arg8 : FVec F S512x16 .f32) (main_arg9 : FVec F S8193x1024 .f32) (main_arg10 : FVec F S1024 .f32) (main_v33 : IVec S_ 1) : IVec S_ 1 :=
  let main_v34 : FVec F S512x16 .f32 := Host.absf main_arg7
  let main_cst_12 : FVec F S_ .f32 := constant S_ .f32 0x7F800000#32
  let main_v35 : FVec F S512x16 .f32 := broadcastInDim S512x16 ![] bcast_S_S512x16 main_cst_12
  let main_v36 : IVec S512x16 1 := cmpf .olt main_v34 main_v35
  let main_c_13 : IVec S_ 1 := constantI S_ 1 1#1
  let main_v37 : IVec S_ 1 := (fun x v => Host.reduce IntOp.andi x v reducesTo_S512x16_S_d0_1 h_S_) main_v36 main_c_13
  let main_v38 : IVec S_ 1 := andi main_v33 main_v37
  let main_v39 : FVec F S512x16 .f32 := Host.absf main_arg8
  let main_cst_14 : FVec F S_ .f32 := constant S_ .f32 0x7F800000#32
  let main_v40 : FVec F S512x16 .f32 := broadcastInDim S512x16 ![] bcast_S_S512x16 main_cst_14
  let main_v41 : IVec S512x16 1 := cmpf .olt main_v39 main_v40
  let main_c_15 : IVec S_ 1 := constantI S_ 1 1#1
  let main_v42 : IVec S_ 1 := (fun x v => Host.reduce IntOp.andi x v reducesTo_S512x16_S_d0_1 h_S_) main_v41 main_c_15
  let main_v43 : IVec S_ 1 := andi main_v38 main_v42
  let main_v44 : FVec F S8193x1024 .f32 := Host.absf main_arg9
  let main_cst_16 : FVec F S_ .f32 := constant S_ .f32 0x7F800000#32
  let main_v45 : FVec F S8193x1024 .f32 := broadcastInDim S8193x1024 ![] bcast_S_S8193x1024 main_cst_16
  let main_v46 : IVec S8193x1024 1 := cmpf .olt main_v44 main_v45
  let main_c_17 : IVec S_ 1 := constantI S_ 1 1#1
  let main_v47 : IVec S_ 1 := (fun x v => Host.reduce IntOp.andi x v reducesTo_S8193x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S8 .f32) (main_arg5 : FVec F S8x512 .f32) (main_arg6 : FVec F S512 .f32) (main_arg7 : FVec F S512x16 .f32) (main_arg8 : FVec F S512x16 .f32) (main_arg9 : FVec F S8193x1024 .f32) (main_arg10 : FVec F S1024 .f32) (main_v13 : IVec S_ 1) (main_v16 : IVec S8x8 1) : IVec S_ 1 :=
  let main_c_5 : IVec S_ 1 := constantI S_ 1 1#1
  let main_v17 : IVec S_ 1 := (fun x v => Host.reduce IntOp.andi x v reducesTo_S8x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x512 .f32 := Host.absf main_arg5
  let main_cst_8 : FVec F S_ .f32 := constant S_ .f32 0x7F800000#32
  let main_v25 : FVec F S8x512 .f32 := broadcastInDim S8x512 ![] bcast_S_S8x512 main_cst_8
  let main_v26 : IVec S8x512 1 := cmpf .olt main_v24 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x512 .f32) (main_arg1 : FVec F S512x8 .f32) (main_arg2 : FVec F S8 .f32) (main_arg3 : FVec F S8x8 .f32) (main_arg4 : FVec F S8 .f32) (main_arg5 : FVec F S8x512 .f32) (main_arg6 : FVec F S512 .f32) (main_arg7 : FVec F S512x16 .f32) (main_arg8 : FVec F S512x16 .f32) (main_arg9 : FVec F S8193x1024 .f32) (main_arg10 : FVec F S1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x8 .f32 := Host.absf main_arg1
  let main_cst_0 : FVec F S_ .f32 := constant S_ .f32 0x7F800000#32
  let main_v5 : FVec F S512x8 .f32 := broadcastInDim S512x8 ![] bcast_S_S512x8 main_cst_0
  let main_v6 : IVec S512x8 1 := cmpf .olt main_v4 main_v5
  let main_c_1 : IVec S_ 1 := constantI S_ 1 1#1
  let main_v7 : IVec S_ 1 := (fun x v => Host.reduce IntOp.andi x v reducesTo_S512x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x8 .f32 := Host.absf main_arg3
  let main_cst_4 : FVec F S_ .f32 := constant S_ .f32 0x7F800000#32
  let main_v15 : FVec F S8x8 .f32 := broadcastInDim S8x8 ![] bcast_S_S8x8 main_cst_4
  let main_v16 : IVec S8x8 1 := cmpf .olt main_v14 main_v15
  fn_part1 (F := F) main_arg4 main_arg5 main_arg6 main_arg7 main_arg8 main_arg9 main_arg10 main_v13 main_v16
-- ==== Kernel.lean ====
abbrev S8192x512 : Shape := ⟨2, ![8192, 512]⟩
abbrev S512x8 : Shape := ⟨2, ![512, 8]⟩
abbrev S8 : Shape := ⟨1, ![8]⟩
abbrev S8x8 : Shape := ⟨2, ![8, 8]⟩
abbrev S8x512 : Shape := ⟨2, ![8, 512]⟩
abbrev S512 : Shape := ⟨1, ![512]⟩
abbrev S512x16 : Shape := ⟨2, ![512, 16]⟩
abbrev S8193x1024 : Shape := ⟨2, ![8193, 1024]⟩
abbrev S1024 : Shape := ⟨1, ![1024]⟩
abbrev S_ : Shape := ⟨0, ![]⟩
abbrev S16x512 : Shape := ⟨2, ![16, 512]⟩
abbrev S8192x1024 : Shape := ⟨2, ![8192, 1024]⟩
abbrev S1x1024 : Shape := ⟨2, ![1, 1024]⟩
abbrev S512x16x1024 : Shape := ⟨3, ![512, 16, 1024]⟩
abbrev S16x512x1024 : Shape := ⟨3, ![16, 512, 1024]⟩
abbrev S1x8 : Shape := ⟨2, ![1, 8]⟩
abbrev S1x512 : Shape := ⟨2, ![1, 512]⟩
abbrev S512x512 : Shape := ⟨2, ![512, 512]⟩
abbrev S512x1024 : Shape := ⟨2, ![512, 1024]⟩
abbrev S512x1 : Shape := ⟨2, ![512, 1]⟩
abbrev S1x512x1024 : Shape := ⟨3, ![1, 512, 1024]⟩

abbrev nBuf : Space → Nat
  | .hbm => 27
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S512x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x512, .f32⟩
  | .hbm, ⟨6, _⟩ => ⟨S512, .f32⟩
  | .hbm, ⟨7, _⟩ => ⟨S512x16, .f32⟩
  | .hbm, ⟨8, _⟩ => ⟨S512x16, .f32⟩
  | .hbm, ⟨9, _⟩ => ⟨S8193x1024, .f32⟩
  | .hbm, ⟨10, _⟩ => ⟨S1024, .f32⟩
  | .hbm, ⟨11, _⟩ => ⟨S512x16, .f32⟩
  | .hbm, ⟨12, _⟩ => ⟨S_, .f32⟩
  | .hbm, ⟨13, _⟩ => ⟨S512x16, .f32⟩
  | .hbm, ⟨14, _⟩ => ⟨S512x16, .f32⟩
  | .hbm, ⟨15, _⟩ => ⟨S16x512, .f32⟩
  | .hbm, ⟨16, _⟩ => ⟨S16x512, .f32⟩
  | .hbm, ⟨17, _⟩ => ⟨S8192x1024, .f32⟩
  | .hbm, ⟨18, _⟩ => ⟨S1x1024, .f32⟩
  | .hbm, ⟨19, _⟩ => ⟨S512x16x1024, .f32⟩
  | .hbm, ⟨20, _⟩ => ⟨S16x512x1024, .f32⟩
  | .hbm, ⟨21, _⟩ => ⟨S16x512x1024, .bf16⟩
  | .hbm, ⟨22, _⟩ => ⟨S1x8, .f32⟩
  | .hbm, ⟨23, _⟩ => ⟨S1x8, .f32⟩
  | .hbm, ⟨24, _⟩ => ⟨S1x512, .f32⟩
  | .hbm, ⟨25, _⟩ => ⟨S1x1024, .f32⟩
  | .hbm, ⟨26, _⟩ => ⟨S8192x1024, .f32⟩
  | .local _ .vmem, ⟨0, _⟩ => ⟨S512x512, .f32⟩
  | .local _ .vmem, ⟨1, _⟩ => ⟨S512x512, .f32⟩
  | .local _ .vmem, ⟨2, _⟩ => ⟨S512x8, .f32⟩
  | .local _ .vmem, ⟨3, _⟩ => ⟨S1x8, .f32⟩
  | .local _ .vmem, ⟨4, _⟩ => ⟨S8x8, .f32⟩
  | .local _ .vmem, ⟨5, _⟩ => ⟨S1x8, .f32⟩
  | .local _ .vmem, ⟨6, _⟩ => ⟨S8x512, .f32⟩
  | .local _ .vmem, ⟨7, _⟩ => ⟨S1x512, .f32⟩
  | .local _ .vmem, ⟨8, _⟩ => ⟨S16x512, .f32⟩
  | .local _ .vmem, ⟨9, _⟩ => ⟨S16x512, .f32⟩
  | .local _ .vmem, ⟨10, _⟩ => ⟨S16x512x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S512x16 : S_.BroadcastsInDim S512x16 (![] : Fin 0 → Fin S512x16.rank)
  transposes_S512x16_S16x512_1_0 : S512x16.Transposes [1, 0] S16x512
  slices_S8193x1024_S8192x1024_0_0 : S8193x1024.Slices ![0, 0] S8192x1024
  slices_S8193x1024_S1x1024_8192_0 : S8193x1024.Slices ![8192, 0] S1x1024
  shapeCasts_S8192x1024_S512x16x1024 : S8192x1024.ShapeCasts S512x16x1024
  transposes_S512x16x1024_S16x512x1024_1_0_2 : S512x16x1024.Transposes [1, 0, 2] S16x512x1024
  bitsLt_bf16_f32 : FTy.bits .bf16 < FTy.bits .f32
  shapeCasts_S8_S1x8 : S8.ShapeCasts S1x8
  shapeCasts_S512_S1x512 : S512.ShapeCasts S1x512
  shapeCasts_S1024_S1x1024 : S1024.ShapeCasts S1x1024
  inb_S512x512_S512x512_0_0 : ∀ a, (![0, 0] : Fin 2 → Nat) a + S512x512.size a ≤ S512x512.size a
  h_S512x512 : 0 < S512x512.numel
  inb_S512x8_S512x8_0_0 : ∀ a, (![0, 0] : Fin 2 → Nat) a + S512x8.size a ≤ S512x8.size a
  h_S512x8 : 0 < S512x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S8x8_S8x8_0_0 : ∀ a, (![0, 0] : Fin 2 → Nat) a + S8x8.size a ≤ S8x8.size a
  h_S8x8 : 0 < S8x8.numel
  inb_S8x512_S8x512_0_0 : ∀ a, (![0, 0] : Fin 2 → Nat) a + S8x512.size a ≤ S8x512.size a
  h_S8x512 : 0 < S8x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  shapeCasts_S512_S512x1 : S512.ShapeCasts S512x1
  inb_S16x512_S1x512_0_0 : ∀ a, (![0, 0] : Fin 2 → Nat) a + S1x512.size a ≤ S16x512.size a
  shapeCasts_S1x512_S512 : S1x512.ShapeCasts S512
  inb_S16x512x1024_S1x512x1024_0_0_0 : ∀ a, (![0, 0, 0] : Fin 3 → Nat) a + S1x512x1024.size a ≤ S16x512x1024.size a
  h_S1x512x1024 : 0 < S1x512x1024.numel
  shapeCasts_S1x512x1024_S512x1024 : S1x512x1024.ShapeCasts S512x1024
  inb_S16x512_S1x512_1_0 : ∀ a, (![1, 0] : Fin 2 → Nat) a + S1x512.size a ≤ S16x512.size a
  inb_S16x512x1024_S1x512x1024_1_0_0 : ∀ a, (![1, 0, 0] : Fin 3 → Nat) a + S1x512x1024.size a ≤ S16x512x1024.size a
  inb_S16x512_S1x512_2_0 : ∀ a, (![2, 0] : Fin 2 → Nat) a + S1x512.size a ≤ S16x512.size a
  inb_S16x512x1024_S1x512x1024_2_0_0 : ∀ a, (![2, 0, 0] : Fin 3 → Nat) a + S1x512x1024.size a ≤ S16x512x1024.size a
  inb_S16x512_S1x512_3_0 : ∀ a, (![3, 0] : Fin 2 → Nat) a + S1x512.size a ≤ S16x512.size a
  inb_S16x512x1024_S1x512x1024_3_0_0 : ∀ a, (![3, 0, 0] : Fin 3 → Nat) a + S1x512x1024.size a ≤ S16x512x1024.size a
  inb_S16x512_S1x512_4_0 : ∀ a, (![4, 0] : Fin 2 → Nat) a + S1x512.size a ≤ S16x512.size a
  inb_S16x512x1024_S1x512x1024_4_0_0 : ∀ a, (![4, 0, 0] : Fin 3 → Nat) a + S1x512x1024.size a ≤ S16x512x1024.size a
  inb_S16x512_S1x512_5_0 : ∀ a, (![5, 0] : Fin 2 → Nat) a + S1x512.size a ≤ S16x512.size a
  inb_S16x512x1024_S1x512x1024_5_0_0 : ∀ a, (![5, 0, 0] : Fin 3 → Nat) a + S1x512x1024.size a ≤ S16x512x1024.size a
  inb_S16x512_S1x512_6_0 : ∀ a, (![6, 0] : Fin 2 → Nat) a + S1x512.size a ≤ S16x512.size a
  inb_S16x512x1024_S1x512x1024_6_0_0 : ∀ a, (![6, 0, 0] : Fin 3 → Nat) a + S1x512x1024.size a ≤ S16x512x1024.size a
  inb_S16x512_S1x512_7_0 : ∀ a, (![7, 0] : Fin 2 → Nat) a + S1x512.size a ≤ S16x512.size a
  inb_S16x512x1024_S1x512x1024_7_0_0 : ∀ a, (![7, 0, 0] : Fin 3 → Nat) a + S1x512x1024.size a ≤ S16x512x1024.size a
  inb_S16x512_S1x512_8_0 : ∀ a, (![8, 0] : Fin 2 → Nat) a + S1x512.size a ≤ S16x512.size a
  inb_S16x512x1024_S1x512x1024_8_0_0 : ∀ a, (![8, 0, 0] : Fin 3 → Nat) a + S1x512x1024.size a ≤ S16x512x1024.size a
  inb_S16x512_S1x512_9_0 : ∀ a, (![9, 0] : Fin 2 → Nat) a + S1x512.size a ≤ S16x512.size a
  inb_S16x512x1024_S1x512x1024_9_0_0 : ∀ a, (![9, 0, 0] : Fin 3 → Nat) a + S1x512x1024.size a ≤ S16x512x1024.size a
  inb_S16x512_S1x512_10_0 : ∀ a, (![10, 0] : Fin 2 → Nat) a + S1x512.size a ≤ S16x512.size a
  inb_S16x512x1024_S1x512x1024_10_0_0 : ∀ a, (![10, 0, 0] : Fin 3 → Nat) a + S1x512x1024.size a ≤ S16x512x1024.size a
  inb_S16x512_S1x512_11_0 : ∀ a, (![11, 0] : Fin 2 → Nat) a + S1x512.size a ≤ S16x512.size a
  inb_S16x512x1024_S1x512x1024_11_0_0 : ∀ a, (![11, 0, 0] : Fin 3 → Nat) a + S1x512x1024.size a ≤ S16x512x1024.size a
  inb_S16x512_S1x512_12_0 : ∀ a, (![12, 0] : Fin 2 → Nat) a + S1x512.size a ≤ S16x512.size a
  inb_S16x512x1024_S1x512x1024_12_0_0 : ∀ a, (![12, 0, 0] : Fin 3 → Nat) a + S1x512x1024.size a ≤ S16x512x1024.size a
  inb_S16x512_S1x512_13_0 : ∀ a, (![13, 0] : Fin 2 → Nat) a + S1x512.size a ≤ S16x512.size a
  inb_S16x512x1024_S1x512x1024_13_0_0 : ∀ a, (![13, 0, 0] : Fin 3 → Nat) a + S1x512x1024.size a ≤ S16x512x1024.size a
  inb_S16x512_S1x512_14_0 : ∀ a, (![14, 0] : Fin 2 → Nat) a + S1x512.size a ≤ S16x512.size a
  inb_S16x512x1024_S1x512x1024_14_0_0 : ∀ a, (![14, 0, 0] : Fin 3 → Nat) a + S1x512x1024.size a ≤ S16x512x1024.size a
  inb_S16x512_S1x512_15_0 : ∀ a, (![15, 0] : Fin 2 → Nat) a + S1x512.size a ≤ S16x512.size a
  inb_S16x512x1024_S1x512x1024_15_0_0 : ∀ a, (![15, 0, 0] : Fin 3 → Nat) a + S1x512x1024.size a ≤ S16x512x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x512_S512x8_S512x8_1_0_0_1_n_n_wf : DotDims.WF S512x512 S512x8 S512x8 [1] [0] [0] [1] [] []
  dot_S512x8_S8x8_S512x8_1_0_0_1_n_n_wf : DotDims.WF S512x8 S8x8 S512x8 [1] [0] [0] [1] [] []
  dot_S512x8_S8x512_S512x512_1_0_0_1_n_n_wf : DotDims.WF S512x8 S8x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x8.size a ≤ S512x8.size a
  hwx0_1 : ∀ i : grid0.Coords, EltTy.bits .f32 = 32 ∨ (Rect.block (s := S512x8) S512x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x8.size a ≤ S8x8.size a
  hwx0_3 : ∀ i : grid0.Coords, EltTy.bits .f32 = 32 ∨ (Rect.block (s := S8x8) S8x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S8x512.size a
  hwx0_5 : ∀ i : grid0.Coords, EltTy.bits .f32 = 32 ∨ (Rect.block (s := S8x512) S8x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x512.size a ≤ S16x512.size a
  hwx0_7 : ∀ i : grid0.Coords, EltTy.bits .f32 = 32 ∨ (Rect.block (s := S16x512) S16x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x512.size a ≤ S16x512.size a
  hwx0_8 : ∀ i : grid0.Coords, EltTy.bits .f32 = 32 ∨ (Rect.block (s := S16x512) S16x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x512x1024.size a ≤ S16x512x1024.size a
  hwx0_9 : ∀ i : grid0.Coords, EltTy.bits .bf16 = 32 ∨ (Rect.block (s := S16x512x1024) S16x512x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S8192x1024.size a
  hwx0_12 : ∀ i : grid0.Coords, EltTy.bits .f32 = 32 ∨ (Rect.block (s := S8192x1024) S512x1024.size (cc0_transform_12 i) (hinb0_12 i)).WholeWords (EltTy.packing .f32)

variable [Facts₀]

def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def dot_S512x8_S8x8_S512x8_1_0_0_1_n_n : DotDims S512x8 S8x8 S512x8 where
  lhsContracting := [1]
  rhsContracting := [0]
  lhsNonContracting := [0]
  rhsNonContracting := [1]
  lhsBatch := []
  rhsBatch := []
  wf := dot_S512x8_S8x8_S512x8_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S16x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S16x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S16x512x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S512x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x8 : Shape := ⟨2, ![512, 8]⟩
abbrev S8 : Shape := ⟨1, ![8]⟩
abbrev S8x8 : Shape := ⟨2, ![8, 8]⟩
abbrev S8x512 : Shape := ⟨2, ![8, 512]⟩
abbrev S512 : Shape := ⟨1, ![512]⟩
abbrev S512x16 : Shape := ⟨2, ![512, 16]⟩
abbrev S8193x1024 : Shape := ⟨2, ![8193, 1024]⟩
abbrev S1024 : Shape := ⟨1, ![1024]⟩
abbrev S8192x8 : Shape := ⟨2, ![8192, 8]⟩
abbrev S1x8 : Shape := ⟨2, ![1, 8]⟩
abbrev S_ : Shape := ⟨0, ![]⟩
abbrev S1x512 : Shape := ⟨2, ![1, 512]⟩
abbrev S1x512x16 : Shape := ⟨3, ![1, 512, 16]⟩
abbrev S8192x512x1 : Shape := ⟨3, ![8192, 512, 1]⟩
abbrev S8192x512x16 : Shape := ⟨3, ![8192, 512, 16]⟩
abbrev S8192x8192 : Shape := ⟨2, ![8192, 8192]⟩
abbrev S8192 : Shape := ⟨1, ![8192]⟩
abbrev S8192x1 : Shape := ⟨2, ![8192, 1]⟩
abbrev S8192x8193 : Shape := ⟨2, ![8192, 8193]⟩
abbrev S8192x1024 : Shape := ⟨2, ![8192, 1024]⟩
abbrev S1x1024 : Shape := ⟨2, ![1, 1024]⟩

abbrev nBuf : Space → Nat
  | .hbm => 87
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x8, .f32⟩
  | .hbm, ⟨2, _⟩ => ⟨S8, .f32⟩
  | .hbm, ⟨3, _⟩ => ⟨S8x8, .f32⟩
  | .hbm, ⟨4, _⟩ => ⟨S8, .f32⟩
  | .hbm, ⟨5, _⟩ => ⟨S8x512, .f32⟩
  | .hbm, ⟨6, _⟩ => ⟨S512, .f32⟩
  | .hbm, ⟨7, _⟩ => ⟨S512x16, .f32⟩
  | .hbm, ⟨8, _⟩ => ⟨S512x16, .f32⟩
  | .hbm, ⟨9, _⟩ => ⟨S8193x1024, .f32⟩
  | .hbm, ⟨10, _⟩ => ⟨S1024, .f32⟩
  | .hbm, ⟨11, _⟩ => ⟨S8192x8, .f32⟩
  | .hbm, ⟨12, _⟩ => ⟨S1x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S_, .f32⟩
  | .hbm, ⟨18, _⟩ => ⟨S8192x8, .f32⟩
  | .hbm, ⟨19, _⟩ => ⟨S8192x8, .f32⟩
  | .hbm, ⟨20, _⟩ => ⟨S_, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S1x8, .f32⟩
  | .hbm, ⟨26, _⟩ => ⟨S8192x8, .f32⟩
  | .hbm, ⟨27, _⟩ => ⟨S8192x8, .f32⟩
  | .hbm, ⟨28, _⟩ => ⟨S8192x8, .f32⟩
  | .hbm, ⟨29, _⟩ => ⟨S8192x8, .f32⟩
  | .hbm, ⟨30, _⟩ => ⟨S_, .f32⟩
  | .hbm, ⟨31, _⟩ => ⟨S8192x8, .f32⟩
  | .hbm, ⟨32, _⟩ => ⟨S8192x8, .f32⟩
  | .hbm, ⟨33, _⟩ => ⟨S_, .f32⟩
  | .hbm, ⟨34, _⟩ => ⟨S8192x8, .f32⟩
  | .hbm, ⟨35, _⟩ => ⟨S8192x8, .f32⟩
  | .hbm, ⟨36, _⟩ => ⟨S8192x8, .f32⟩
  | .hbm, ⟨37, _⟩ => ⟨S8192x512, .f32⟩
  | .hbm, ⟨38, _⟩ => ⟨S1x512, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .i1⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S_, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S512x16, .f32⟩
  | .hbm, ⟨61, _⟩ => ⟨S1x512x16, .f32⟩
  | .hbm, ⟨62, _⟩ => ⟨S_, .f32⟩
  | .hbm, ⟨63, _⟩ => ⟨S1x512x16, .f32⟩
  | .hbm, ⟨64, _⟩ => ⟨S1x512x16, .f32⟩
  | .hbm, ⟨65, _⟩ => ⟨S8192x512x1, .f32⟩
  | .hbm, ⟨66, _⟩ => ⟨S1x512x16, .f32⟩
  | .hbm, ⟨67, _⟩ => ⟨S8192x512x16, .f32⟩
  | .hbm, ⟨68, _⟩ => ⟨S8192x512x16, .f32⟩
  | .hbm, ⟨69, _⟩ => ⟨S8192x512x16, .f32⟩
  | .hbm, ⟨70, _⟩ => ⟨S8192x512x16, .f32⟩
  | .hbm, ⟨71, _⟩ => ⟨S8192x512x16, .f32⟩
  | .hbm, ⟨72, _⟩ => ⟨S8192x512x16, .f32⟩
  | .hbm, ⟨73, _⟩ => ⟨S_, .f32⟩
  | .hbm, ⟨74, _⟩ => ⟨S8192x512x16, .f32⟩
  | .hbm, ⟨75, _⟩ => ⟨S8192x512x16, .f32⟩
  | .hbm, ⟨76, _⟩ => ⟨S8192x512x16, .f32⟩
  | .hbm, ⟨77, _⟩ => ⟨S8192x8192, .f32⟩
  | .hbm, ⟨78, _⟩ => ⟨S8192x512, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x8193, .f32⟩
  | .hbm, ⟨83, _⟩ => ⟨S8192x1024, .f32⟩
  | .hbm, ⟨84, _⟩ => ⟨S1x1024, .f32⟩
  | .hbm, ⟨85, _⟩ => ⟨S8192x1024, .f32⟩
  | .hbm, ⟨86, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_cst : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_v14 : Ref sig .tc := ⟨.hbm, 54, rfl⟩
abbrev main_cst : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_cst_0 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_1 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_2 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  bcast_S_S8192x8 : S_.BroadcastsInDim S8192x8 (![] : Fin 0 → Fin S8192x8.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S512x16_S1x512x16_1_2 : S512x16.BroadcastsInDim S1x512x16 (![1, 2] : Fin 2 → Fin S1x512x16.rank)
  bcast_S_S1x512x16 : S_.BroadcastsInDim S1x512x16 (![] : Fin 0 → Fin S1x512x16.rank)
  bcast_S8192x512_S8192x512x1_0_1 : S8192x512.BroadcastsInDim S8192x512x1 (![0, 1] : Fin 2 → Fin S8192x512x1.rank)
  bcast_S8192x512x1_S8192x512x16_0_1_2 : S8192x512x1.BroadcastsInDim S8192x512x16 (![0, 1, 2] : Fin 3 → Fin S8192x512x16.rank)
  bcast_S1x512x16_S8192x512x16_0_1_2 : S1x512x16.BroadcastsInDim S8192x512x16 (![0, 1, 2] : Fin 3 → Fin S8192x512x16.rank)
  bcast_S_S8192x512x16 : S_.BroadcastsInDim S8192x512x16 (![] : Fin 0 → Fin S8192x512x16.rank)
  shapeCasts_S8192x512x16_S8192x8192 : S8192x512x16.ShapeCasts S8192x8192
  reducesTo_S8192x512_S8192_d1 : S8192x512.ReducesTo [1] S8192
  h_S_ : 0 < S_.numel
  bcast_S8192_S8192x1_0 : S8192.BroadcastsInDim S8192x1 (![0] : Fin 1 → Fin S8192x1.rank)
  concatenates_S8192x8192_S8192x1_S8192x8193_d1 : Shape.Concatenates [S8192x8192, S8192x1] S8192x8193 1
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x512_S512x8_S8192x8_1_0_0_1_n_n_wf : DotDims.WF S8192x512 S512x8 S8192x8 [1] [0] [0] [1] [] []
  dot_S8192x8_S8x8_S8192x8_1_0_0_1_n_n_wf : DotDims.WF S8192x8 S8x8 S8192x8 [1] [0] [0] [1] [] []
  dot_S8192x8_S8x512_S8192x512_1_0_0_1_n_n_wf : DotDims.WF S8192x8 S8x512 S8192x512 [1] [0] [0] [1] [] []
  dot_S8192x8193_S8193x1024_S8192x1024_1_0_0_1_n_n_wf : DotDims.WF S8192x8193 S8193x1024 S8192x1024 [1] [0] [0] [1] [] []

variable [Facts₀]

def dot_S8192x512_S512x8_S8192x8_1_0_0_1_n_n : DotDims S8192x512 S512x8 S8192x8 where
  lhsContracting := [1]
  rhsContracting := [0]
  lhsNonContracting := [0]
  rhsNonContracting := [1]
  lhsBatch := []
  rhsBatch := []
  wf := dot_S8192x512_S512x8_S8192x8_1_0_0_1_n_n_wf
def dot_S8192x8_S8x8_S8192x8_1_0_0_1_n_n : DotDims S8192x8 S8x8 S8192x8 where
  lhsContracting := [1]
  rhsContracting := [0]
  lhsNonContracting := [0]
  rhsNonContracting := [1]
  lhsBatch := []
  rhsBatch := []
  wf := dot_S8192x8_S8x8_S8192x8_1_0_0_1_n_n_wf
def dot_S8192x8_S8x512_S8192x512_1_0_0_1_n_n : DotDims S8192x8 S8x512 S8192x512 where
  lhsContracting := [1]
  rhsContracting := [0]
  lhsNonContracting := [0]
  rhsNonContracting := [1]
  lhsBatch := []
  rhsBatch := []
  wf := dot_S8192x8_S8x512_S8192x512_1_0_0_1_n_n_wf
def dot_S8192x8193_S8193x1024_S8192x1024_1_0_0_1_n_n : DotDims S8192x8193 S8193x1024 S8192x1024 where
  lhsContracting := [1]
  rhsContracting := [0]
  lhsNonContracting := [0]
  rhsNonContracting := [1]
  lhsBatch := []
  rhsBatch := []
  wf := dot_S8192x8193_S8193x1024_S8192x1024_1_0_0_1_n_n_wf

class Facts : Prop extends Facts₀ where

variable [Facts]
-- ==== Proof.Spec.lean ====
/-
  The mathematics both programs compute, one output row at a time, on the extended reals.

  A row `x : Fin 512 → EReal` of the input goes through a three-layer network with widths 512 → 8 → 8 → 512
  (`silu` after the first two layers, `softplus` plus a small constant after the third) to a positive per-feature
  metric `g`. The row is warped feature by feature, `z i = x i · √(g i)`, and the log-determinant of the warp is
  `∑ i, log (g i)`. Each warped feature is expanded over 16 radial basis functions
  `φ i k = exp (−2 · ((z i − c i k) / w i k)²)` with widths `w i k = exp (ℓ i k) + 1e-12`. The output is the linear map
  of the 8193 features (the 8192 basis values, feature-major and basis-minor, then the log-determinant) by a matrix
  `Wout : 8193 × 1024`, plus a bias.

  One program contracts all 8193 features at once (`outFlat`); the other sums, basis function by basis function,
  sixteen contractions over the 512 features and then adds the log-determinant's row (`outByBasis`). The two are the
  same finite sum in another order (`outByBasis_eq_outFlat`): extended-real addition is commutative and associative
  with no side condition, so no finiteness is used.
-/
import Idealize.ShloMosaic.PureOps.Ideal
import Idealize.ShloMosaic.PureOps.Ideal.Laws
import Idealize.ShloMosaic.Lib.IdealHost
import Idealize.ShloMosaic.Lib.ValueIdx
import Mathlib.Algebra.BigOperators.Fin
import Mathlib.Logic.Equiv.Fin.Basic

noncomputable section

open Idealize.ShloMosaic
open scoped BigOperators

namespace Cert.MetricRbf

/-! ## Scalars -/

/-- `v · σ(v)` with `σ` the logistic function. -/
def silu (v : EReal) : EReal := v * Ideal.logistic v

/-- `max v 0 + log (1 + exp (−|v|))`, the overflow-safe spelling of `log (1 + exp v)`. -/
def softplus (v : EReal) : EReal := max v 0 + Ideal.log1p (Ideal.exp (-(max v (-v))))

/-- The constant added to the metric (the f32 nearest `1e-8`). -/
abbrev epsG : EReal := Ideal.ofBits .f32 0x322BCC77#32
/-- The constant added to a width (the f32 nearest `1e-12`). -/
abbrev epsW : EReal := Ideal.ofBits .f32 0x2B8CBCCC#32
/-- `−2`, the basis functions' sharpness. -/
abbrev negTwo : EReal := Ideal.ofBits .f32 0xC0000000#32

/-- One radial basis value of a warped feature `z` with centre `c` and width `w`. -/
def rbf (z c w : EReal) : EReal := Ideal.exp (negTwo * (Ideal.div (z - c) w * Ideal.div (z - c) w))

/-- A width from its logarithm. -/
def width (l : EReal) : EReal := Ideal.exp l + epsW

/-! ## One row -/

section Row

variable (x : Fin 512 → EReal) (W1 : Fin 512 → Fin 8 → EReal) (b1 : Fin 8 → EReal)
  (W2 : Fin 8 → Fin 8 → EReal) (b2 : Fin 8 → EReal) (W3 : Fin 8 → Fin 512 → EReal) (b3 : Fin 512 → EReal)

/-- First hidden layer. -/
def hid1 (j : Fin 8) : EReal := silu ((∑ k : Fin 512, x k * W1 k j) + b1 j)
/-- Second hidden layer. -/
def hid2 (j : Fin 8) : EReal := silu ((∑ k : Fin 8, hid1 x W1 b1 k * W2 k j) + b2 j)
/-- The per-feature metric. -/
def metric (i : Fin 512) : EReal := softplus ((∑ k : Fin 8, hid2 x W1 b1 W2 b2 k * W3 k i) + b3 i) + epsG
/-- The warped feature. -/
def warped (i : Fin 512) : EReal := x i * Ideal.sqrt (metric x W1 b1 W2 b2 W3 b3 i)
/-- The log-determinant of the warp. -/
def logdet : EReal := 0 + ∑ i : Fin 512, Ideal.log (metric x W1 b1 W2 b2 W3 b3 i)

/-- The output summed basis function by basis function: `cT k i`, `wT k i` are centre and width of basis `k` at
    feature `i`, `WR k i o` the output weights of that basis value, `wl` the log-determinant's weights, `bo` the bias. -/
def outByBasis (cT wT : Fin 16 → Fin 512 → EReal) (WR : Fin 16 → Fin 512 → Fin 1024 → EReal)
    (wl bo : Fin 1024 → EReal) (o : Fin 1024) : EReal :=
  ((∑ k : Fin 16, ∑ i : Fin 512, rbf (warped x W1 b1 W2 b2 W3 b3 i) (cT k i) (wT k i) * WR k i o)
    + logdet x W1 b1 W2 b2 W3 b3 * wl o) + bo o

/-- Feature `j` of the 8193: basis value `j % 16` of input feature `j / 16` for `j < 8192`, then the log-determinant. -/
def feat (C L : Fin 512 → Fin 16 → EReal) (j : Fin 8193) : EReal :=
  if h : j.val < 8192 then
    rbf (warped x W1 b1 W2 b2 W3 b3 ⟨j.val / 16, by omega⟩) (C ⟨j.val / 16, by omega⟩ ⟨j.val % 16, Nat.mod_lt _ (by decide)⟩)
      (width (L ⟨j.val / 16, by omega⟩ ⟨j.val % 16, Nat.mod_lt _ (by decide)⟩))
  else logdet x W1 b1 W2 b2 W3 b3

/-- The output as one contraction over all 8193 features. -/
def outFlat (C L : Fin 512 → Fin 16 → EReal) (WO : Fin 8193 → Fin 1024 → EReal) (bo : Fin 1024 → EReal)
    (o : Fin 1024) : EReal :=
  (∑ j : Fin 8193, feat x W1 b1 W2 b2 W3 b3 C L j * WO j o) + bo o

end Row

/-! ## The two spellings of the scalar functions -/

/-- Comparing a value with itself for inequality answers "no" on the extended reals, ordered or unordered. -/
theorem cmp_one_self (v : EReal) : Ideal.cmp .one v v = 0#1 := by simp [Ideal.cmp]
theorem cmp_une_self (v : EReal) : Ideal.cmp .une v v = 0#1 := by simp [Ideal.cmp]

/-- Softplus with the exponent spelled `0 − |v − 0|` behind a not-a-number guard that never fires. -/
theorem softplus_of_sub (v : EReal) :
    Scalar.select (Ideal.cmp .one (v - 0) (v - 0)) (v + 0)
      (max v 0 + Ideal.log1p (Ideal.exp (0 - max (v - 0) (-(v - 0))))) = softplus v := by
  rw [cmp_one_self, ValueIdx.select_zero, sub_zero, zero_sub]; rfl

/-- Softplus with the exponent spelled `−|v − 0|` behind the same guard. -/
theorem softplus_of_neg (v : EReal) :
    Scalar.select (Ideal.cmp .une (v - 0) (v - 0)) (v + 0)
      (max v 0 + Ideal.log1p (Ideal.exp (-(max (v - 0) (-(v - 0)))))) = softplus v := by
  rw [cmp_une_self, ValueIdx.select_zero, sub_zero]; rfl

/-- The logistic function spelled as a quotient. -/
theorem silu_of_div (v : EReal) : v * Ideal.div 1 (1 + Ideal.exp (-v)) = silu v := rfl

/-! ## Sixteen terms added one after the other onto zero -/

/-- A sum over `Fin 16` is its terms added left to right onto `0`. -/
theorem sum16 {M : Type*} [AddCommMonoid M] (f : Fin 16 → M) :
    (((((((((((((((((0 : M) + f 0) + f 1) + f 2) + f 3) + f 4) + f 5) + f 6) + f 7) + f 8) + f 9) + f 10) + f 11) + f 12)
      + f 13) + f 14) + f 15) = ∑ k : Fin 16, f k := by
  simp only [Fin.sum_univ_castSucc, Fin.sum_univ_zero]
  rfl

/-! ## The contraction regrouped -/

/-- A sum over 8193 terms is the double sum over 16 × 512 of the terms `i · 16 + k`, plus the last term. -/
theorem sum_8193 {M : Type*} [AddCommMonoid M] (f : Fin 8193 → M) :
    ∑ j : Fin 8193, f j
      = (∑ k : Fin 16, ∑ i : Fin 512, f ⟨i.val * 16 + k.val, by have := i.isLt; have := k.isLt; omega⟩)
        + f ⟨8192, by decide⟩ := by
  rw [Fin.sum_univ_castSucc, Finset.sum_comm]
  congr 1
  rw [← Finset.sum_product', ← (finProdFinEquiv (m := 512) (n := 16)).sum_comp]
  simp only [Finset.univ_product_univ]
  refine Finset.sum_congr rfl fun p _ => congrArg f (Fin.ext ?_)
  simp only [finProdFinEquiv_apply_val, Fin.coe_castSucc]
  omega

section Law

variable (x : Fin 512 → EReal) (W1 : Fin 512 → Fin 8 → EReal) (b1 : Fin 8 → EReal)
  (W2 : Fin 8 → Fin 8 → EReal) (b2 : Fin 8 → EReal) (W3 : Fin 8 → Fin 512 → EReal) (b3 : Fin 512 → EReal)

/-- Summing basis function by basis function, with centres and widths transposed and the weight rows `i · 16 + k`
    regrouped by `k`, and adding the log-determinant's row last, is the contraction over all 8193 features. -/
theorem outByBasis_eq_outFlat (C L : Fin 512 → Fin 16 → EReal) (WO : Fin 8193 → Fin 1024 → EReal)
    (bo : Fin 1024 → EReal) (o : Fin 1024) :
    outByBasis x W1 b1 W2 b2 W3 b3 (fun k i => C i k) (fun k i => width (L i k))
      (fun k i o => WO ⟨i.val * 16 + k.val, by have := i.isLt; have := k.isLt; omega⟩ o)
      (fun o => WO ⟨8192, by decide⟩ o) bo o
    = outFlat x W1 b1 W2 b2 W3 b3 C L WO bo o := by
  unfold outByBasis outFlat
  rw [sum_8193]
  refine congrArg (· + bo o) ?_
  refine congrArg₂ (· + ·) ?_ ?_
  · refine Finset.sum_congr rfl fun k _ => Finset.sum_congr rfl fun i _ => ?_
    have hi := i.isLt; have hk := k.isLt
    have hlt : i.val * 16 + k.val < 8192 := by omega
    have hd : (i.val * 16 + k.val) / 16 = i.val := by omega
    have hm : (i.val * 16 + k.val) % 16 = k.val := by omega
    unfold feat
    rw [dif_pos hlt]
    have e1 : (⟨(i.val * 16 + k.val) / 16, by omega⟩ : Fin 512) = i := Fin.ext hd
    have e2 : (⟨(i.val * 16 + k.val) % 16, Nat.mod_lt _ (by decide)⟩ : Fin 16) = k := Fin.ext hm
    simp only [e1, e2]
  · have h : ¬ ((⟨8192, by decide⟩ : Fin 8193).val < 8192) := by decide
    unfold feat
    rw [dif_neg h]

end Law

end Cert.MetricRbf

end
-- ==== Proof.KernelMetric.lean ====
/-
  The kernel's per-row network read at an index of its 512 × 512 block: the metric, the warped feature and the
  log-determinant of row p are the row functions of Proof/Spec.lean applied to row p of the input block.
-/
import proofs.«142920_j60722247631487_1_alg».proof.Proof.Spec
import proofs.«142920_j60722247631487_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Point

open Cert.KernelIdeal Cert.KernelIdeal.Gen Cert.MetricRbf

namespace Net

/-! ## The three contractions onto zero, as plain sums

Each contracts the left operand's second axis with the right operand's first: at output index `i` and contraction
coordinate `q` the left operand is read at `(i 0, q)` and the right at `(q, i 1)` (the four coordinate lemmas of each),
so the entry is the sum over `k` of `a (i 0, k) · w (k, i 1)`. -/

theorem lhs1_0 (i : S512x8.Idx) (q : dot_S512x512_S512x8_S512x8_1_0_0_1_n_n.contr.Idx) :
    (dot_S512x512_S512x8_S512x8_1_0_0_1_n_n.lhsIdx i q 0).val = (i 0).val := by
  unfold DotDims.lhsIdx
  rw [dif_neg (show ¬(0 : Fin S512x512.rank) ∈ dot_S512x512_S512x8_S512x8_1_0_0_1_n_n.lhsBatch by decide),
    dif_pos (show (0 : Fin S512x512.rank) ∈ dot_S512x512_S512x8_S512x8_1_0_0_1_n_n.lhsNonContracting by decide)]
  rfl
theorem lhs1_1 (i : S512x8.Idx) (q : dot_S512x512_S512x8_S512x8_1_0_0_1_n_n.contr.Idx) :
    (dot_S512x512_S512x8_S512x8_1_0_0_1_n_n.lhsIdx i q 1).val = (q ⟨0, by decide⟩).val :=
  dot_S512x512_S512x8_S512x8_1_0_0_1_n_n.lhsIdx_val_of_single rfl i q
theorem rhs1_0 (i : S512x8.Idx) (q : dot_S512x512_S512x8_S512x8_1_0_0_1_n_n.contr.Idx) :
    (dot_S512x512_S512x8_S512x8_1_0_0_1_n_n.rhsIdx i q 0).val = (q ⟨0, by decide⟩).val :=
  dot_S512x512_S512x8_S512x8_1_0_0_1_n_n.rhsIdx_val_of_single rfl i q
theorem rhs1_1 (i : S512x8.Idx) (q : dot_S512x512_S512x8_S512x8_1_0_0_1_n_n.contr.Idx) :
    (dot_S512x512_S512x8_S512x8_1_0_0_1_n_n.rhsIdx i q 1).val = (i 1).val := by
  unfold DotDims.rhsIdx
  rw [dif_neg (show ¬(1 : Fin S512x8.rank) ∈ dot_S512x512_S512x8_S512x8_1_0_0_1_n_n.rhsBatch by decide),
    dif_pos (show (1 : Fin S512x8.rank) ∈ dot_S512x512_S512x8_S512x8_1_0_0_1_n_n.rhsNonContracting by decide)]
  rfl

/-- Entry `i` of the first contraction: row `i 0` of the block against column `i 1` of the weights. -/
theorem mm1_apply (a : FVec Ideal S512x512 .f32) (w : FVec Ideal S512x8 .f32) (i : S512x8.Idx) :
    matmul dot_S512x512_S512x8_S512x8_1_0_0_1_n_n none a w (constant S512x8 .f32 0x00000000#32) i
      = ∑ k : Fin 512, a (ix2 (i 0) k) * w (ix2 k (i 1)) := by
  simp only [matmul]
  rw [Ideal.matmul_constant_zero_apply,
    ← Equiv.sum_comp (ValueIdx.contrEquiv1 dot_S512x512_S512x8_S512x8_1_0_0_1_n_n 512 rfl rfl).symm]
  refine Finset.sum_congr rfl fun k _ => ?_
  have hk := ValueIdx.contrEquiv1_symm_val dot_S512x512_S512x8_S512x8_1_0_0_1_n_n 512 rfl rfl k
  have el : dot_S512x512_S512x8_S512x8_1_0_0_1_n_n.lhsIdx i ((ValueIdx.contrEquiv1 dot_S512x512_S512x8_S512x8_1_0_0_1_n_n 512 rfl rfl).symm k) = ix2 (i 0) k :=
    funext fun c => Fin.ext (by
      match c with
      | ⟨0, _⟩ => exact lhs1_0 _ _
      | ⟨1, _⟩ => exact (lhs1_1 _ _).trans hk)
  have er : dot_S512x512_S512x8_S512x8_1_0_0_1_n_n.rhsIdx i ((ValueIdx.contrEquiv1 dot_S512x512_S512x8_S512x8_1_0_0_1_n_n 512 rfl rfl).symm k) = ix2 k (i 1) :=
    funext fun c => Fin.ext (by
      match c with
      | ⟨0, _⟩ => exact (rhs1_0 _ _).trans hk
      | ⟨1, _⟩ => exact rhs1_1 _ _)
  rw [el, er]
  rfl

theorem lhs2_0 (i : S512x8.Idx) (q : dot_S512x8_S8x8_S512x8_1_0_0_1_n_n.contr.Idx) :
    (dot_S512x8_S8x8_S512x8_1_0_0_1_n_n.lhsIdx i q 0).val = (i 0).val := by
  unfold DotDims.lhsIdx
  rw [dif_neg (show ¬(0 : Fin S512x8.rank) ∈ dot_S512x8_S8x8_S512x8_1_0_0_1_n_n.lhsBatch by decide),
    dif_pos (show (0 : Fin S512x8.rank) ∈ dot_S512x8_S8x8_S512x8_1_0_0_1_n_n.lhsNonContracting by decide)]
  rfl
theorem lhs2_1 (i : S512x8.Idx) (q : dot_S512x8_S8x8_S512x8_1_0_0_1_n_n.contr.Idx) :
    (dot_S512x8_S8x8_S512x8_1_0_0_1_n_n.lhsIdx i q 1).val = (q ⟨0, by decide⟩).val :=
  dot_S512x8_S8x8_S512x8_1_0_0_1_n_n.lhsIdx_val_of_single rfl i q
theorem rhs2_0 (i : S512x8.Idx) (q : dot_S512x8_S8x8_S512x8_1_0_0_1_n_n.contr.Idx) :
    (dot_S512x8_S8x8_S512x8_1_0_0_1_n_n.rhsIdx i q 0).val = (q ⟨0, by decide⟩).val :=
  dot_S512x8_S8x8_S512x8_1_0_0_1_n_n.rhsIdx_val_of_single rfl i q
theorem rhs2_1 (i : S512x8.Idx) (q : dot_S512x8_S8x8_S512x8_1_0_0_1_n_n.contr.Idx) :
    (dot_S512x8_S8x8_S512x8_1_0_0_1_n_n.rhsIdx i q 1).val = (i 1).val := by
  unfold DotDims.rhsIdx
  rw [dif_neg (show ¬(1 : Fin S8x8.rank) ∈ dot_S512x8_S8x8_S512x8_1_0_0_1_n_n.rhsBatch by decide),
    dif_pos (show (1 : Fin S8x8.rank) ∈ dot_S512x8_S8x8_S512x8_1_0_0_1_n_n.rhsNonContracting by decide)]
  rfl

/-- The second contraction, over the eight hidden units. -/
theorem mm2_apply (a : FVec Ideal S512x8 .f32) (w : FVec Ideal S8x8 .f32) (i : S512x8.Idx) :
    matmul dot_S512x8_S8x8_S512x8_1_0_0_1_n_n none a w (constant S512x8 .f32 0x00000000#32) i
      = ∑ k : Fin 8, a (ix2 (i 0) k) * w (ix2 k (i 1)) := by
  simp only [matmul]
  rw [Ideal.matmul_constant_zero_apply,
    ← Equiv.sum_comp (ValueIdx.contrEquiv1 dot_S512x8_S8x8_S512x8_1_0_0_1_n_n 8 rfl rfl).symm]
  refine Finset.sum_congr rfl fun k _ => ?_
  have hk := ValueIdx.contrEquiv1_symm_val dot_S512x8_S8x8_S512x8_1_0_0_1_n_n 8 rfl rfl k
  have el : dot_S512x8_S8x8_S512x8_1_0_0_1_n_n.lhsIdx i ((ValueIdx.contrEquiv1 dot_S512x8_S8x8_S512x8_1_0_0_1_n_n 8 rfl rfl).symm k) = ix2 (i 0) k :=
    funext fun c => Fin.ext (by
      match c with
      | ⟨0, _⟩ => exact lhs2_0 _ _
      | ⟨1, _⟩ => exact (lhs2_1 _ _).trans hk)
  have er : dot_S512x8_S8x8_S512x8_1_0_0_1_n_n.rhsIdx i ((ValueIdx.contrEquiv1 dot_S512x8_S8x8_S512x8_1_0_0_1_n_n 8 rfl rfl).symm k) = ix2 k (i 1) :=
    funext fun c => Fin.ext (by
      match c with
      | ⟨0, _⟩ => exact (rhs2_0 _ _).trans hk
      | ⟨1, _⟩ => exact rhs2_1 _ _)
  rw [el, er]
  rfl

theorem lhs3_0 (i : S512x512.Idx) (q : dot_S512x8_S8x512_S512x512_1_0_0_1_n_n.contr.Idx) :
    (dot_S512x8_S8x512_S512x512_1_0_0_1_n_n.lhsIdx i q 0).val = (i 0).val := by
  unfold DotDims.lhsIdx
  rw [dif_neg (show ¬(0 : Fin S512x8.rank) ∈ dot_S512x8_S8x512_S512x512_1_0_0_1_n_n.lhsBatch by decide),
    dif_pos (show (0 : Fin S512x8.rank) ∈ dot_S512x8_S8x512_S512x512_1_0_0_1_n_n.lhsNonContracting by decide)]
  rfl
theorem lhs3_1 (i : S512x512.Idx) (q : dot_S512x8_S8x512_S512x512_1_0_0_1_n_n.contr.Idx) :
    (dot_S512x8_S8x512_S512x512_1_0_0_1_n_n.lhsIdx i q 1).val = (q ⟨0, by decide⟩).val :=
  dot_S512x8_S8x512_S512x512_1_0_0_1_n_n.lhsIdx_val_of_single rfl i q
theorem rhs3_0 (i : S512x512.Idx) (q : dot_S512x8_S8x512_S512x512_1_0_0_1_n_n.contr.Idx) :
    (dot_S512x8_S8x512_S512x512_1_0_0_1_n_n.rhsIdx i q 0).val = (q ⟨0, by decide⟩).val :=
  dot_S512x8_S8x512_S512x512_1_0_0_1_n_n.rhsIdx_val_of_single rfl i q
theorem rhs3_1 (i : S512x512.Idx) (q : dot_S512x8_S8x512_S512x512_1_0_0_1_n_n.contr.Idx) :
    (dot_S512x8_S8x512_S512x512_1_0_0_1_n_n.rhsIdx i q 1).val = (i 1).val := by
  unfold DotDims.rhsIdx
  rw [dif_neg (show ¬(1 : Fin S8x512.rank) ∈ dot_S512x8_S8x512_S512x512_1_0_0_1_n_n.rhsBatch by decide),
    dif_pos (show (1 : Fin S8x512.rank) ∈ dot_S512x8_S8x512_S512x512_1_0_0_1_n_n.rhsNonContracting by decide)]
  rfl

/-- The third contraction, over the eight hidden units, back to 512 features. -/
theorem mm3_apply (a : FVec Ideal S512x8 .f32) (w : FVec Ideal S8x512 .f32) (i : S512x512.Idx) :
    matmul dot_S512x8_S8x512_S512x512_1_0_0_1_n_n none a w (constant S512x512 .f32 0x00000000#32) i
      = ∑ k : Fin 8, a (ix2 (i 0) k) * w (ix2 k (i 1)) := by
  simp only [matmul]
  rw [Ideal.matmul_constant_zero_apply,
    ← Equiv.sum_comp (ValueIdx.contrEquiv1 dot_S512x8_S8x512_S512x512_1_0_0_1_n_n 8 rfl rfl).symm]
  refine Finset.sum_congr rfl fun k _ => ?_
  have hk := ValueIdx.contrEquiv1_symm_val dot_S512x8_S8x512_S512x512_1_0_0_1_n_n 8 rfl rfl k
  have el : dot_S512x8_S8x512_S512x512_1_0_0_1_n_n.lhsIdx i ((ValueIdx.contrEquiv1 dot_S512x8_S8x512_S512x512_1_0_0_1_n_n 8 rfl rfl).symm k) = ix2 (i 0) k :=
    funext fun c => Fin.ext (by
      match c with
      | ⟨0, _⟩ => exact lhs3_0 _ _
      | ⟨1, _⟩ => exact (lhs3_1 _ _).trans hk)
  have er : dot_S512x8_S8x512_S512x512_1_0_0_1_n_n.rhsIdx i ((ValueIdx.contrEquiv1 dot_S512x8_S8x512_S512x512_1_0_0_1_n_n 8 rfl rfl).symm k) = ix2 k (i 1) :=
    funext fun c => Fin.ext (by
      match c with
      | ⟨0, _⟩ => exact (rhs3_0 _ _).trans hk
      | ⟨1, _⟩ => exact rhs3_1 _ _)
  rw [el, er]
  rfl

section

variable (v0 : Vec Ideal S512x512 .f32) (v1 : Vec Ideal S512x8 .f32) (v3 : Vec Ideal S1x8 .f32)
  (v9 : Vec Ideal S8x8 .f32) (v11 : Vec Ideal S1x8 .f32) (v17 : Vec Ideal S8x512 .f32) (v19 : Vec Ideal S1x512 .f32)

/-! ## The network's stages, as the kernel spells them -/

/-- The first layer before its activation: the block against the first weights, plus the bias row on every row. -/
def pre1 : FVec Ideal S512x8 .f32 :=
  addf (matmul (φ₁ := .f32) (φ₂ := .f32) dot_S512x512_S512x8_S512x8_1_0_0_1_n_n none v0 v1 (constant S512x8 .f32 0x00000000#32))
    (broadcastTo S512x8 (shapeCast S1x8 v3 shapeCasts_S1x8_S1x8) broadcasts_S1x8_S512x8)

/-- The first hidden layer: `v · σ(v)` of the first layer. -/
def act1 : FVec Ideal S512x8 .f32 := mulf (pre1 v0 v1 v3) (logistic (pre1 v0 v1 v3))

/-- The second layer before its activation. -/
def pre2 : FVec Ideal S512x8 .f32 :=
  addf (matmul (φ₁ := .f32) (φ₂ := .f32) dot_S512x8_S8x8_S512x8_1_0_0_1_n_n none (act1 v0 v1 v3) v9 (constant S512x8 .f32 0x00000000#32))
    (broadcastTo S512x8 (shapeCast S1x8 v11 shapeCasts_S1x8_S1x8) broadcasts_S1x8_S512x8)

/-- The second hidden layer. -/
def act2 : FVec Ideal S512x8 .f32 := mulf (pre2 v0 v1 v3 v9 v11) (logistic (pre2 v0 v1 v3 v9 v11))

/-- The third layer before `softplus`. -/
def pre3 : FVec Ideal S512x512 .f32 :=
  addf (matmul (φ₁ := .f32) (φ₂ := .f32) dot_S512x8_S8x512_S512x512_1_0_0_1_n_n none (act2 v0 v1 v3 v9 v11) v17 (constant S512x512 .f32 0x00000000#32))
    (broadcastTo S512x512 (shapeCast S1x512 v19 shapeCasts_S1x512_S1x512) broadcasts_S1x512_S512x512)

/-- `softplus` with its exponent spelled `0 − |v − 0|`, behind a comparison of `v − 0` with itself that never fires,
    plus the small constant. -/
def spEps (v : FVec Ideal S512x512 .f32) : FVec Ideal S512x512 .f32 :=
  addf
    (select (cmpf .one (subf v (broadcast S512x512 (Scalar.ofBits (F := Ideal) .f32 0x00000000#32))) (subf v (broadcast S512x512 (Scalar.ofBits (F := Ideal) .f32 0x00000000#32))))
      (addf v (broadcast S512x512 (Scalar.ofBits (F := Ideal) .f32 0x00000000#32)))
      (addf (maximumf v (broadcast S512x512 (Scalar.ofBits (F := Ideal) .f32 0x00000000#32)))
        (log1p (exp (subf (broadcast S512x512 (Scalar.ofBits (F := Ideal) .f32 0x00000000#32)) (absf (subf v (broadcast S512x512 (Scalar.ofBits (F := Ideal) .f32 0x00000000#32)))))))))
    (broadcast S512x512 (Scalar.ofBits (F := Ideal) .f32 0x322BCC77#32))

/-- The metric block is these stages one after the other. -/
theorem k0_pay1_eq :
    k0_pay1 (F := Ideal) v0 v1 v3 v9 v11 v17 v19 = spEps (pre3 v0 v1 v3 v9 v11 v17 v19) := rfl

/-! ## Each stage at an index -/

theorem pre1_apply (p : Fin 512) (j : Fin 8) :
    pre1 v0 v1 v3 (ix2 p j) = (∑ k : Fin 512, v0 (ix2 p k) * v1 (ix2 k j)) + v3 (ix2 0 j) := by
  unfold pre1
  rw [addf_apply, mm1_apply, shapeCast_self, broadcastTo_1b_ab_apply]

theorem act1_apply (p : Fin 512) (j : Fin 8) :
    act1 v0 v1 v3 (ix2 p j) = hid1 (fun k => v0 (ix2 p k)) (fun k j => v1 (ix2 k j)) (fun j => v3 (ix2 0 j)) j := by
  show pre1 v0 v1 v3 (ix2 p j) * Ideal.logistic (pre1 v0 v1 v3 (ix2 p j)) = _
  rw [pre1_apply]
  rfl

theorem pre2_apply (p : Fin 512) (j : Fin 8) :
    pre2 v0 v1 v3 v9 v11 (ix2 p j)
      = (∑ k : Fin 8, hid1 (fun k => v0 (ix2 p k)) (fun k j => v1 (ix2 k j)) (fun j => v3 (ix2 0 j)) k * v9 (ix2 k j))
        + v11 (ix2 0 j) := by
  unfold pre2
  rw [addf_apply, mm2_apply, shapeCast_self, broadcastTo_1b_ab_apply]
  simp only [act1_apply]

theorem act2_apply (p : Fin 512) (j : Fin 8) :
    act2 v0 v1 v3 v9 v11 (ix2 p j)
      = hid2 (fun k => v0 (ix2 p k)) (fun k j => v1 (ix2 k j)) (fun j => v3 (ix2 0 j)) (fun k j => v9 (ix2 k j))
          (fun j => v11 (ix2 0 j)) j := by
  show pre2 v0 v1 v3 v9 v11 (ix2 p j) * Ideal.logistic (pre2 v0 v1 v3 v9 v11 (ix2 p j)) = _
  rw [pre2_apply]
  rfl

theorem pre3_apply (p i : Fin 512) :
    pre3 v0 v1 v3 v9 v11 v17 v19 (ix2 p i)
      = (∑ k : Fin 8, hid2 (fun k => v0 (ix2 p k)) (fun k j => v1 (ix2 k j)) (fun j => v3 (ix2 0 j))
            (fun k j => v9 (ix2 k j)) (fun j => v11 (ix2 0 j)) k * v17 (ix2 k i))
        + v19 (ix2 0 i) := by
  unfold pre3
  rw [addf_apply, mm3_apply, shapeCast_self, broadcastTo_1b_ab_apply]
  simp only [act2_apply]

theorem spEps_apply (v : FVec Ideal S512x512 .f32) (i : S512x512.Idx) : spEps v i = softplus (v i) + epsG := by
  show Scalar.select
      (Ideal.cmp .one (v i - Ideal.ofBits .f32 0x00000000#32) (v i - Ideal.ofBits .f32 0x00000000#32))
      (v i + Ideal.ofBits .f32 0x00000000#32)
      (max (v i) (Ideal.ofBits .f32 0x00000000#32)
        + Ideal.log1p (Ideal.exp (Ideal.ofBits .f32 0x00000000#32
            - max (v i - Ideal.ofBits .f32 0x00000000#32) (-(v i - Ideal.ofBits .f32 0x00000000#32)))))
      + Ideal.ofBits .f32 0x322BCC77#32 = _
  rw [Ideal.ofBits_zero_f32, softplus_of_sub]

end

end Net

open Net

section

variable (v0 : Vec Ideal S512x512 .f32) (v1 : Vec Ideal S512x8 .f32) (v3 : Vec Ideal S1x8 .f32)
  (v9 : Vec Ideal S8x8 .f32) (v11 : Vec Ideal S1x8 .f32) (v17 : Vec Ideal S8x512 .f32) (v19 : Vec Ideal S1x512 .f32)

/-- Entry (p, i) of the metric block is the metric of row p at feature i. -/
theorem metric_apply (p i : Fin 512) :
    k0_pay1 (F := Ideal) v0 v1 v3 v9 v11 v17 v19 (ix2 p i)
      = metric (fun k => v0 (ix2 p k)) (fun k j => v1 (ix2 k j)) (fun j => v3 (ix2 0 j)) (fun k j => v9 (ix2 k j))
          (fun j => v11 (ix2 0 j)) (fun k i => v17 (ix2 k i)) (fun i => v19 (ix2 0 i)) i := by
  rw [k0_pay1_eq, spEps_apply, pre3_apply]
  rfl

/-- Entry (p, i) of the warped block is the warped feature i of row p. -/
theorem warped_apply (p i : Fin 512) :
    k0_pay2 (F := Ideal) v0 (k0_pay1 (F := Ideal) v0 v1 v3 v9 v11 v17 v19) (ix2 p i)
      = warped (fun k => v0 (ix2 p k)) (fun k j => v1 (ix2 k j)) (fun j => v3 (ix2 0 j)) (fun k j => v9 (ix2 k j))
          (fun j => v11 (ix2 0 j)) (fun k i => v17 (ix2 k i)) (fun i => v19 (ix2 0 i)) i := by
  show v0 (ix2 p i) * Ideal.sqrt (k0_pay1 (F := Ideal) v0 v1 v3 v9 v11 v17 v19 (ix2 p i)) = _
  rw [metric_apply]
  rfl

/-- Entry (p, 0) of the log-determinant column is the log-determinant of row p. -/
theorem logdet_apply (p : Fin 512) :
    k0_pay3 (F := Ideal) (k0_pay1 (F := Ideal) v0 v1 v3 v9 v11 v17 v19) (ix2 p 0)
      = logdet (fun k => v0 (ix2 p k)) (fun k j => v1 (ix2 k j)) (fun j => v3 (ix2 0 j)) (fun k j => v9 (ix2 k j))
          (fun j => v11 (ix2 0 j)) (fun k i => v17 (ix2 k i)) (fun i => v19 (ix2 0 i)) := by
  have e : ∀ k : Fin 512, reduces_S512x512_S512.lift (ix1 p) k = ix2 p k := fun k =>
    funext fun c => Fin.ext (by match c with | ⟨0, _⟩ => rfl | ⟨1, _⟩ => rfl)
  unfold k0_pay3
  dsimp only
  refine (shapeCast_apply _ shapeCasts_S512_S512x1 (ix2 p 0) (ix1 p) ?_).trans ?_
  · rw [Shape.rowMajor_val_one, Shape.rowMajor_val_two]
    show p.val = p.val * 1 + 0
    omega
  · refine (Ideal.multiReduction_add_single (φ := .f32) _ _ reduces_S512x512_S512 _ _ (ix1 p)).trans ?_
    show ∑ k : Fin 512, Ideal.log (k0_pay1 (F := Ideal) v0 v1 v3 v9 v11 v17 v19 (reduces_S512x512_S512.lift (ix1 p) k)) = _
    simp only [e, metric_apply]
    exact (zero_add _).symm

end

end Cert.KernelIdeal.Point

end
-- ==== Proof.KernelPoint.lean ====
/-
  The kernel's one store, read at an index of its 512 × 1024 block: entry (p, q) is the row function of
  Proof/Spec.lean applied to row p of the input block and to the weight blocks, summed basis function by basis
  function.
-/
import proofs.«142920_j60722247631487_1_alg».proof.Proof.Spec
import proofs.«142920_j60722247631487_1_alg».proof.Proof.KernelMetric
import proofs.«142920_j60722247631487_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Point

open Cert.KernelIdeal Cert.KernelIdeal.Gen Cert.MetricRbf

/-! ## The contraction of a 512 × 512 block with a 512 × 1024 block

Where the two operands are read for output entry (p, q) at inner position k: the left one at (p, k), the right one at
(k, q). -/

theorem lhs_basis_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem lhs_basis_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_basis_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_basis_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- Onto a zero accumulator, entry (p, q) of the product is the sum over the 512 inner positions. -/
theorem mm_basis (A : FVec Ideal S512x512 .bf16) (B : FVec Ideal S512x1024 .bf16) (p : Fin 512) (q : Fin 1024) :
    matmul dot_S512x512_S512x1024_S512x1024_1_0_0_1_n_n none A B (constant (F := Ideal) S512x1024 .f32 0x00000000#32) (ix2 p q)
      = ∑ k : Fin 512, A (ix2 p k) * B (ix2 k q) := by
  refine (Ideal.matmul_constant_zero_apply dot_S512x512_S512x1024_S512x1024_1_0_0_1_n_n none A B (ix2 p q)).trans ?_
  rw [← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 p q)
      ((ValueIdx.contrEquiv1 dot_S512x512_S512x1024_S512x1024_1_0_0_1_n_n 512 rfl rfl).symm k) = ix2 p k :=
    funext fun a => Fin.ext (by
      match a with
      | ⟨0, _⟩ => exact lhs_basis_0 _ _
      | ⟨1, _⟩ => exact (lhs_basis_1 _ _).trans hk)
  have er : dot_S512x512_S512x1024_S512x1024_1_0_0_1_n_n.rhsIdx (ix2 p q)
      ((ValueIdx.contrEquiv1 dot_S512x512_S512x1024_S512x1024_1_0_0_1_n_n 512 rfl rfl).symm k) = ix2 k q :=
    funext fun a => Fin.ext (by
      match a with
      | ⟨0, _⟩ => exact (rhs_basis_0 _ _).trans hk
      | ⟨1, _⟩ => exact rhs_basis_1 _ _)
  rw [el, er]

/-! ## Layout -/

/-- A column broadcast along the rows: entry (p, c) is the column's entry p. -/
theorem outCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-row block flattened to a vector, made a row again and repeated down 512 rows: entry (p, i) is the row's
    entry i. -/
theorem basisRow_apply (c : FVec Ideal S1x512 .f32) (p i : Fin 512) :
    broadcastTo S512x512 (shapeCast S1x512 (shapeCast S512 c shapeCasts_S1x512_S512) shapeCasts_S512_S1x512)
      broadcasts_S1x512_S512x512 (ix2 p i) = c (ix2 0 i) :=
  (broadcastTo_1b_ab_apply _ broadcasts_S1x512_S512x512 p i).trans
    (congrFun (shapeCast_shapeCast c shapeCasts_S1x512_S512 shapeCasts_S512_S1x512) (ix2 0 i))

/-- A one-row block of 1024 repeated down 512 rows: entry (p, q) is the row's entry q. -/
theorem outRow_apply (r : FVec Ideal S1x1024 .f32) (p : Fin 512) (q : Fin 1024) :
    broadcastTo S512x1024 (shapeCast S1x1024 r shapeCasts_S1x1024_S1x1024) broadcasts_S1x1024_S512x1024 (ix2 p q)
      = r (ix2 0 q) :=
  (broadcastTo_1b_ab_apply _ broadcasts_S1x1024_S512x1024 p q).trans
    (congrFun (shapeCast_self r shapeCasts_S1x1024_S1x1024) (ix2 0 q))

/-! ## One basis function

For basis function k the kernel forms, from the warped block z and row k of the centres and of the widths, the block
of basis values exp (−2 · ((z − c) / w)²), and multiplies it into slab k of the output weights. -/

/-- The block of one basis function's values. -/
def basisBlock (z : FVec Ideal S512x512 .f32) (c w : FVec Ideal S1x512 .f32) : FVec Ideal S512x512 .bf16 :=
  truncf .bf16
    (exp (mulf (broadcast S512x512 (Scalar.ofBits (F := Ideal) .f32 0xC0000000#32))
      (mulf
        (divf
          (subf z (broadcastTo S512x512 (shapeCast S1x512 (shapeCast S512 c shapeCasts_S1x512_S512) shapeCasts_S512_S1x512)
            broadcasts_S1x512_S512x512))
          (broadcastTo S512x512 (shapeCast S1x512 (shapeCast S512 w shapeCasts_S1x512_S512) shapeCasts_S512_S1x512)
            broadcasts_S1x512_S512x512))
        (divf
          (subf z (broadcastTo S512x512 (shapeCast S1x512 (shapeCast S512 c shapeCasts_S1x512_S512) shapeCasts_S512_S1x512)
            broadcasts_S1x512_S512x512))
          (broadcastTo S512x512 (shapeCast S1x512 (shapeCast S512 w shapeCasts_S1x512_S512) shapeCasts_S512_S1x512)
            broadcasts_S1x512_S512x512)))))
    bitsLt_bf16_f32

/-- Entry (p, i) of it is the basis value of z (p, i) with centre c i and width w i. -/
theorem basisBlock_apply (z : FVec Ideal S512x512 .f32) (c w : FVec Ideal S1x512 .f32) (p i : Fin 512) :
    basisBlock z c w (ix2 p i) = rbf (z (ix2 p i)) (c (ix2 0 i)) (w (ix2 0 i)) := by
  show Ideal.exp (Ideal.ofBits .f32 0xC0000000#32
      * (Ideal.div (z (ix2 p i) - _) _ * Ideal.div (z (ix2 p i) - _) _)) = _
  rw [basisRow_apply c p i, basisRow_apply w p i]
  rfl

/-- One basis function's contribution to the output block. -/
def basisTerm (B : FVec Ideal S512x512 .bf16) (W : FVec Ideal S1x512x1024 .bf16) : FVec Ideal S512x1024 .f32 :=
  matmul dot_S512x512_S512x1024_S512x1024_1_0_0_1_n_n none B
    (shapeCast S512x1024 W shapeCasts_S1x512x1024_S512x1024) (constant (F := Ideal) S512x1024 .f32 0x00000000#32)

/-- Entry (p, q) of it: the basis values of row p against column q of the weight slab. -/
theorem basisTerm_apply (z : FVec Ideal S512x512 .f32) (c w : FVec Ideal S1x512 .f32) (W : FVec Ideal S1x512x1024 .bf16)
    (p : Fin 512) (q : Fin 1024) :
    basisTerm (basisBlock z c w) W (ix2 p q)
      = ∑ i : Fin 512, rbf (z (ix2 p i)) (c (ix2 0 i)) (w (ix2 0 i)) * W (ix3 0 i q) := by
  unfold basisTerm
  refine (mm_basis _ _ p q).trans (Finset.sum_congr rfl fun i _ => ?_)
  rw [basisBlock_apply, shapeCast_1ab_ab_apply]

/-! ## Rows and slabs through their rectangles -/

/-- Row k of a 16 × 512 block, loaded as the 1 × 512 rectangle at offset (k, 0). -/
theorem ld_row (x : Vec Ideal S16x512 .f32) {off : Fin 2 → ℕ} (inb : ∀ a, off a + S1x512.size a ≤ S16x512.size a)
    (k : Fin 16) (h0 : off 0 = k.val) (h1 : off 1 = 0) (u : Fin 1) (i : Fin 512) :
    View.ld x (Rect.unit (s := S16x512) off S1x512.size inb) (ix2 u i) = x (ix2 k i) := by
  show x _ = x _
  refine congrArg x (funext fun a => Fin.ext ?_)
  have hu := u.isLt
  match a with
  | ⟨0, _⟩ => show off 0 + 1 * u.val = k.val; omega
  | ⟨1, _⟩ => show off 1 + 1 * i.val = i.val; omega

/-- Slab k of a 16 × 512 × 1024 block, loaded as the 1 × 512 × 1024 rectangle at offset (k, 0, 0). -/
theorem ld_slab (x : Vec Ideal S16x512x1024 .bf16) {off : Fin 3 → ℕ}
    (inb : ∀ a, off a + S1x512x1024.size a ≤ S16x512x1024.size a)
    (k : Fin 16) (h0 : off 0 = k.val) (h1 : off 1 = 0) (h2 : off 2 = 0) (u : Fin 1) (i : Fin 512) (o : Fin 1024) :
    View.ld x (Rect.unit (s := S16x512x1024) off S1x512x1024.size inb) (ix3 u i o) = x (ix3 k i o) := by
  show x _ = x _
  refine congrArg x (funext fun a => Fin.ext ?_)
  have hu := u.isLt
  match a with
  | ⟨0, _⟩ => show off 0 + 1 * u.val = k.val; omega
  | ⟨1, _⟩ => show off 1 + 1 * i.val = i.val; omega
  | ⟨2, _⟩ => show off 2 + 1 * o.val = o.val; omega

/-- The contribution of basis function k, its centres, widths and weights loaded through their rectangles. -/
theorem stanza_apply (z : FVec Ideal S512x512 .f32) (x7 x8 : Vec Ideal S16x512 .f32) (x9 : Vec Ideal S16x512x1024 .bf16)
    {off : Fin 2 → ℕ} {off' : Fin 3 → ℕ} (inb : ∀ a, off a + S1x512.size a ≤ S16x512.size a)
    (inb' : ∀ a, off' a + S1x512x1024.size a ≤ S16x512x1024.size a) (k : Fin 16)
    (h0 : off 0 = k.val) (h1 : off 1 = 0) (h0' : off' 0 = k.val) (h1' : off' 1 = 0) (h2' : off' 2 = 0)
    (p : Fin 512) (q : Fin 1024) :
    basisTerm (basisBlock z (View.ld x7 (Rect.unit (s := S16x512) off S1x512.size inb))
        (View.ld x8 (Rect.unit (s := S16x512) off S1x512.size inb)))
      (View.ld x9 (Rect.unit (s := S16x512x1024) off' S1x512x1024.size inb')) (ix2 p q)
      = ∑ i : Fin 512, rbf (z (ix2 p i)) (x7 (ix2 k i)) (x8 (ix2 k i)) * x9 (ix3 k i q) := by
  refine (basisTerm_apply z _ _ _ p q).trans (Finset.sum_congr rfl fun i _ => ?_)
  rw [ld_row x7 inb k h0 h1, ld_row x8 inb k h0 h1, ld_slab x9 inb' k h0' h1' h2']

/-! ## The payloads as sums of contributions

The sixteen contributions are cut across the payloads in several places (a centre row already flattened, a difference
already formed, a square already taken); put back together, each payload adds whole contributions onto what it was
given. All by unfolding. -/

section Payloads

variable (v0 : Vec Ideal S512x512 .f32) (g z : FVec Ideal S512x512 .f32) (acc : FVec Ideal S512x1024 .f32)
  (c1 w1 c2 w2 c3 w3 : Vec Ideal S1x512 .f32) (W1 W2 W3 : Vec Ideal S1x512x1024 .bf16)

theorem pay4_eq :
    k0_pay4 (F := Ideal) v0 g c1 w1 W1
      = addf (broadcast S512x1024 (Scalar.ofBits (F := Ideal) .f32 0x00000000#32))
          (basisTerm (basisBlock (k0_pay2 (F := Ideal) v0 g) c1 w1) W1) := rfl

theorem pay5_eq : k0_pay5 (F := Ideal) v0 g c1 w1 = basisBlock (k0_pay2 (F := Ideal) v0 g) c1 w1 := rfl

theorem pay6_eq (B1 : FVec Ideal S512x512 .bf16) :
    k0_pay6 (F := Ideal) z acc B1 W1 c2 w2 W2 c3 w3 W3
      = addf (addf (addf acc (basisTerm B1 W1)) (basisTerm (basisBlock z c2 w2) W2))
          (basisTerm (basisBlock z c3 w3) W3) := rfl

theorem pay7_eq :
    k0_pay7 (F := Ideal) z acc c1 w1 W1 c2 w2 W2
      = addf (addf acc (basisTerm (basisBlock z c1 w1) W1)) (basisTerm (basisBlock z c2 w2) W2) := rfl

theorem pay9_eq :
    k0_pay9 (F := Ideal) z acc (k0_pay8 (F := Ideal) c1) w1 W1 c2 w2 W2
      = addf (addf acc (basisTerm (basisBlock z c1 w1) W1)) (basisTerm (basisBlock z c2 w2) W2) := rfl

theorem pay11_eq :
    k0_pay11 (F := Ideal) z acc (k0_pay10 (F := Ideal) c1) w1 W1 c2 w2 W2
      = addf (addf acc (basisTerm (basisBlock z c1 w1) W1)) (basisTerm (basisBlock z c2 w2) W2) := rfl

theorem pay14_eq :
    k0_pay14 (F := Ideal) z acc (k0_pay12 (F := Ideal) w1) (k0_pay13 (F := Ideal) z c1) W1 c2 w2 W2
      = addf (addf acc (basisTerm (basisBlock z c1 w1) W1)) (basisTerm (basisBlock z c2 w2) W2) := rfl

theorem pay16_eq :
    k0_pay16 (F := Ideal) z acc (k0_pay15 (F := Ideal) z c1 w1) (Scalar.ofBits (F := Ideal) .f32 0xC0000000#32) W1 c2 w2 W2
      = addf (addf acc (basisTerm (basisBlock z c1 w1) W1)) (basisTerm (basisBlock z c2 w2) W2) := rfl

theorem pay18_eq (ld : FVec Ideal S512x1 .f32) (r10 r11 : Vec Ideal S1x1024 .f32) :
    k0_pay18 (F := Ideal) z ld acc (k0_pay17 (F := Ideal) z c1 w1) W1 c2 w2 W2 r10 r11
      = addf
          (addf (addf (addf acc (basisTerm (basisBlock z c1 w1) W1)) (basisTerm (basisBlock z c2 w2) W2))
            (mulf (broadcastTo S512x1024 ld broadcasts_S512x1_S512x1024)
              (broadcastTo S512x1024 (shapeCast S1x1024 r10 shapeCasts_S1x1024_S1x1024) broadcasts_S1x1024_S512x1024)))
          (broadcastTo S512x1024 (shapeCast S1x1024 r11 shapeCasts_S1x1024_S1x1024) broadcasts_S1x1024_S512x1024) := rfl

end Payloads

/-- The running sum starts from the zero block. -/
theorem outZero_apply (i : S512x1024.Idx) :
    broadcast S512x1024 (Scalar.ofBits (F := Ideal) .f32 0x00000000#32) i = 0 := Ideal.ofBits_zero_f32

/-! ## The stored block -/

/-- Entry (p, q) of what one grid point stores, from the blocks it loaded. -/
theorem out_apply (x0 : Vec Ideal S512x512 .f32) (x1 : Vec Ideal S512x8 .f32) (x2 : Vec Ideal S1x8 .f32)
    (x3 : Vec Ideal S8x8 .f32) (x4 : Vec Ideal S1x8 .f32) (x5 : Vec Ideal S8x512 .f32) (x6 : Vec Ideal S1x512 .f32)
    (x7 x8 : Vec Ideal S16x512 .f32) (x9 : Vec Ideal S16x512x1024 .bf16) (x10 x11 : Vec Ideal S1x1024 .f32)
    (p : Fin 512) (q : Fin 1024) :
    out0_12 (F := Ideal) x0 x1 x2 x3 x4 x5 x6 x7 x8 x9 x10 x11 (ix2 p q)
      = outByBasis (fun i => x0 (ix2 p i)) (fun k j => x1 (ix2 k j)) (fun j => x2 (ix2 0 j))
          (fun k j => x3 (ix2 k j)) (fun j => x4 (ix2 0 j)) (fun k i => x5 (ix2 k i)) (fun i => x6 (ix2 0 i))
          (fun k i => x7 (ix2 k i)) (fun k i => x8 (ix2 k i)) (fun k i o => x9 (ix3 k i o))
          (fun o => x10 (ix2 0 o)) (fun o => x11 (ix2 0 o)) q := by
  have hz : (![0, 0] : Fin 2 → ℕ) = fun _ => 0 := by
    funext a; match a with | ⟨0, _⟩ => rfl | ⟨1, _⟩ => rfl
  -- the one store covers the block, and the whole-block loads read the blocks themselves
  unfold out0_12
  rw [View.canon_unit_zero (S := S512x1024) hz]
  simp only [View.ld_unit_zero (S := S512x512) hz, View.ld_unit_zero (S := S512x8) hz, View.ld_unit_zero (S := S1x8) hz,
    View.ld_unit_zero (S := S8x8) hz, View.ld_unit_zero (S := S8x512) hz, View.ld_unit_zero (S := S1x512) hz,
    View.ld_unit_zero (S := S1x1024) hz]
  -- the warped block and the log-determinant column, known only through row p
  have hZ := fun i => warped_apply x0 x1 x2 x3 x4 x5 x6 p i
  have hL := logdet_apply x0 x1 x2 x3 x4 x5 x6 p
  rw [pay4_eq, pay5_eq]
  generalize k0_pay2 (F := Ideal) x0 (k0_pay1 (F := Ideal) x0 x1 x2 x3 x4 x5 x6) = z at hZ ⊢
  generalize k0_pay3 (F := Ideal) (k0_pay1 (F := Ideal) x0 x1 x2 x3 x4 x5 x6) = ld at hL ⊢
  -- sixteen contributions added one after the other onto zero, then the two last rows
  rw [pay18_eq, pay16_eq, pay14_eq, pay11_eq, pay9_eq, pay7_eq, pay6_eq]
  simp only [addf_apply, mulf_apply]
  rw [outZero_apply,
    stanza_apply z x7 x8 x9 inb_S16x512_S1x512_0_0 inb_S16x512x1024_S1x512x1024_0_0_0 0 rfl rfl rfl rfl rfl p q,
    stanza_apply z x7 x8 x9 inb_S16x512_S1x512_1_0 inb_S16x512x1024_S1x512x1024_1_0_0 1 rfl rfl rfl rfl rfl p q,
    stanza_apply z x7 x8 x9 inb_S16x512_S1x512_2_0 inb_S16x512x1024_S1x512x1024_2_0_0 2 rfl rfl rfl rfl rfl p q,
    stanza_apply z x7 x8 x9 inb_S16x512_S1x512_3_0 inb_S16x512x1024_S1x512x1024_3_0_0 3 rfl rfl rfl rfl rfl p q,
    stanza_apply z x7 x8 x9 inb_S16x512_S1x512_4_0 inb_S16x512x1024_S1x512x1024_4_0_0 4 rfl rfl rfl rfl rfl p q,
    stanza_apply z x7 x8 x9 inb_S16x512_S1x512_5_0 inb_S16x512x1024_S1x512x1024_5_0_0 5 rfl rfl rfl rfl rfl p q,
    stanza_apply z x7 x8 x9 inb_S16x512_S1x512_6_0 inb_S16x512x1024_S1x512x1024_6_0_0 6 rfl rfl rfl rfl rfl p q,
    stanza_apply z x7 x8 x9 inb_S16x512_S1x512_7_0 inb_S16x512x1024_S1x512x1024_7_0_0 7 rfl rfl rfl rfl rfl p q,
    stanza_apply z x7 x8 x9 inb_S16x512_S1x512_8_0 inb_S16x512x1024_S1x512x1024_8_0_0 8 rfl rfl rfl rfl rfl p q,
    stanza_apply z x7 x8 x9 inb_S16x512_S1x512_9_0 inb_S16x512x1024_S1x512x1024_9_0_0 9 rfl rfl rfl rfl rfl p q,
    stanza_apply z x7 x8 x9 inb_S16x512_S1x512_10_0 inb_S16x512x1024_S1x512x1024_10_0_0 10 rfl rfl rfl rfl rfl p q,
    stanza_apply z x7 x8 x9 inb_S16x512_S1x512_11_0 inb_S16x512x1024_S1x512x1024_11_0_0 11 rfl rfl rfl rfl rfl p q,
    stanza_apply z x7 x8 x9 inb_S16x512_S1x512_12_0 inb_S16x512x1024_S1x512x1024_12_0_0 12 rfl rfl rfl rfl rfl p q,
    stanza_apply z x7 x8 x9 inb_S16x512_S1x512_13_0 inb_S16x512x1024_S1x512x1024_13_0_0 13 rfl rfl rfl rfl rfl p q,
    stanza_apply z x7 x8 x9 inb_S16x512_S1x512_14_0 inb_S16x512x1024_S1x512x1024_14_0_0 14 rfl rfl rfl rfl rfl p q,
    stanza_apply z x7 x8 x9 inb_S16x512_S1x512_15_0 inb_S16x512x1024_S1x512x1024_15_0_0 15 rfl rfl rfl rfl rfl p q,
    sum16 (fun k : Fin 16 => ∑ i : Fin 512, rbf (z (ix2 p i)) (x7 (ix2 k i)) (x8 (ix2 k i)) * x9 (ix3 k i q)),
    outCol_apply ld broadcasts_S512x1_S512x1024 p q, outRow_apply x10 p q, outRow_apply x11 p q, hL]
  simp only [hZ]
  rfl

end Cert.KernelIdeal.Point

end
-- ==== Proof.Blocks.lean ====
/-
  From blocks to the array. Grid point t stages rows 512·t … 512·t + 511 of the input and the whole of every weight
  array; the centres and widths arrive transposed, the output weights regrouped basis-major (row i·16 + k of the
  8192 basis rows becomes entry (k, i)), the log-determinant's weights are row 8192, and the rank-1 biases arrive as
  one-row matrices. Point t writes rows 512·t … of the result, so the sixteen points cover the array and the
  result is ONE function `G` of the argument arrays.
-/
import proofs.«142920_j60722247631487_1_alg».proof.Proof.Spec
import proofs.«142920_j60722247631487_1_alg».proof.Proof.KernelPoint
import proofs.«142920_j60722247631487_1_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.MetricRbf

variable (m : (ℓ : Loc nD τ sig) → Buf (Elt Ideal) ℓ) (ρ : Dev nD → PrngReg)

/-- The result array as one function of the argument arrays: entry (b, o) is the row function of row b. -/
def G (c : Dev nD) : S8192x1024.Idx → EReal := fun i =>
  outByBasis (fun k => m ((c : Thread nD τ).loc main_arg0) (ix2 (i 0) k))
    (fun k j => m ((c : Thread nD τ).loc main_arg1) (ix2 k j)) (fun j => m ((c : Thread nD τ).loc main_arg2) (ix1 j))
    (fun k j => m ((c : Thread nD τ).loc main_arg3) (ix2 k j)) (fun j => m ((c : Thread nD τ).loc main_arg4) (ix1 j))
    (fun k i' => m ((c : Thread nD τ).loc main_arg5) (ix2 k i')) (fun i' => m ((c : Thread nD τ).loc main_arg6) (ix1 i'))
    (fun k i' => m ((c : Thread nD τ).loc main_arg7) (ix2 i' k))
    (fun k i' => width (m ((c : Thread nD τ).loc main_arg8) (ix2 i' k)))
    (fun k i' o => m ((c : Thread nD τ).loc main_arg9)
      (ix2 (⟨i'.val * 16 + k.val, by have := i'.isLt; have := k.isLt; omega⟩ : Fin 8193) o))
    (fun o => m ((c : Thread nD τ).loc main_arg9) (ix2 (⟨8192, by decide⟩ : Fin 8193) o))
    (fun o => m ((c : Thread nD τ).loc main_arg10) (ix1 o)) (i 1)

/-! ## The arrays the host prepared before the kernel, entry by entry -/

/-- The first layer's bias as a one-row matrix. -/
theorem v10_apply (c : Dev nD) (u : Fin 1) (j : Fin 8) :
    (V m c main_v10 : S1x8.Idx → EReal) (ix2 u j) = m ((c : Thread nD τ).loc main_arg2) (ix1 j) := by
  have e : (V m c main_v10 : S1x8.Idx → EReal)
      = shapeCast S1x8 (m ((c : Thread nD τ).loc main_arg2)) shapeCasts_S8_S1x8 := by
    dsimp only [Gen.V, Gen.hostOps0]; after_results; all_goals rfl
  rw [e]
  exact shapeCast_a_1a_apply _ _ u j

/-- The second layer's bias as a one-row matrix. -/
theorem v11_apply (c : Dev nD) (u : Fin 1) (j : Fin 8) :
    (V m c main_v11 : S1x8.Idx → EReal) (ix2 u j) = m ((c : Thread nD τ).loc main_arg4) (ix1 j) := by
  have e : (V m c main_v11 : S1x8.Idx → EReal)
      = shapeCast S1x8 (m ((c : Thread nD τ).loc main_arg4)) shapeCasts_S8_S1x8 := by
    dsimp only [Gen.V, Gen.hostOps0]; after_results; all_goals rfl
  rw [e]
  exact shapeCast_a_1a_apply _ _ u j

/-- The third layer's bias as a one-row matrix. -/
theorem v12_apply (c : Dev nD) (u : Fin 1) (i : Fin 512) :
    (V m c main_v12 : S1x512.Idx → EReal) (ix2 u i) = m ((c : Thread nD τ).loc main_arg6) (ix1 i) := by
  have e : (V m c main_v12 : S1x512.Idx → EReal)
      = shapeCast S1x512 (m ((c : Thread nD τ).loc main_arg6)) shapeCasts_S512_S1x512 := by
    dsimp only [Gen.V, Gen.hostOps0]; after_results; all_goals rfl
  rw [e]
  exact shapeCast_a_1a_apply _ _ u i

/-- The output bias as a one-row matrix. -/
theorem v13_apply (c : Dev nD) (u : Fin 1) (o : Fin 1024) :
    (V m c main_v13 : S1x1024.Idx → EReal) (ix2 u o) = m ((c : Thread nD τ).loc main_arg10) (ix1 o) := by
  have e : (V m c main_v13 : S1x1024.Idx → EReal)
      = shapeCast S1x1024 (m ((c : Thread nD τ).loc main_arg10)) shapeCasts_S1024_S1x1024 := by
    dsimp only [Gen.V, Gen.hostOps0]; after_results; all_goals rfl
  rw [e]
  exact shapeCast_a_1a_apply _ _ u o

/-- The centres transposed: entry (k, i) is the centre of basis k at feature i. -/
theorem v3_apply (c : Dev nD) (k : Fin 16) (i : Fin 512) :
    (V m c main_v3 : S16x512.Idx → EReal) (ix2 k i) = m ((c : Thread nD τ).loc main_arg7) (ix2 i k) := by
  have e : (V m c main_v3 : S16x512.Idx → EReal)
      = transpose S16x512 [1, 0] (m ((c : Thread nD τ).loc main_arg7)) transposes_S512x16_S16x512_1_0 := by
    dsimp only [Gen.V, Gen.hostOps0]; after_results; all_goals rfl
  rw [e]
  exact transpose_ix2_apply _ _ k i

/-- The widths: the exponential of their logarithms plus the small constant, then transposed. -/
theorem v4_apply (c : Dev nD) (k : Fin 16) (i : Fin 512) :
    (V m c main_v4 : S16x512.Idx → EReal) (ix2 k i) = width (m ((c : Thread nD τ).loc main_arg8) (ix2 i k)) := by
  have e : (V m c main_v4 : S16x512.Idx → EReal)
      = transpose S16x512 [1, 0] (addf (Host.exp (m ((c : Thread nD τ).loc main_arg8)))
          (broadcastInDim S512x16 ![] bcast_S_S512x16 (constant (F := Ideal) S_ .f32 0x2B8CBCCC#32)))
          transposes_S512x16_S16x512_1_0 := by
    dsimp only [Gen.V, Gen.hostOps0]; after_results; all_goals rfl
  rw [e]
  refine (transpose_ix2_apply _ _ k i).trans ?_
  rfl

/-- The output weights regrouped: entry (k, i, o) is row i·16 + k of the 8193-row matrix. The first 8192 rows are
    sliced off, read as 512 × 16 rows, the two leading axes swapped, and the entries kept as they are. -/
theorem v9_apply (c : Dev nD) (k : Fin 16) (i : Fin 512) (o : Fin 1024) :
    (V m c main_v9 : S16x512x1024.Idx → EReal) (ix3 k i o)
      = m ((c : Thread nD τ).loc main_arg9)
          (ix2 (⟨i.val * 16 + k.val, by have := i.isLt; have := k.isLt; omega⟩ : Fin 8193) o) := by
  have e : (V m c main_v9 : S16x512x1024.Idx → EReal)
      = (truncf (F := Ideal) .bf16 (transpose S16x512x1024 [1, 0, 2]
          (shapeCast S512x16x1024
            (extractStridedSlice S8192x1024 ![0, 0] (m ((c : Thread nD τ).loc main_arg9)) slices_S8193x1024_S8192x1024_0_0)
            shapeCasts_S8192x1024_S512x16x1024)
          transposes_S512x16x1024_S16x512x1024_1_0_2) bitsLt_bf16_f32 : S16x512x1024.Idx → EReal) := by
    dsimp only [Gen.V, Gen.hostOps0]; after_results; all_goals rfl
  have hi := i.isLt
  have hk := k.isLt
  rw [e]
  refine (truncf_apply (ψ := .bf16) _ bitsLt_bf16_f32 (ix3 k i o)).trans ?_
  refine (transpose_apply [1, 0, 2] _ transposes_S512x16x1024_S16x512x1024_1_0_2 (ix3 k i o) (ix3 i k o)
    (fun b => match b with | ⟨0, _⟩ => rfl | ⟨1, _⟩ => rfl | ⟨2, _⟩ => rfl)).trans ?_
  refine (shapeCast_apply _ shapeCasts_S8192x1024_S512x16x1024 (ix3 i k o)
    (ix2 (⟨i.val * 16 + k.val, by omega⟩ : Fin 8192) o) ?_).trans ?_
  · rw [Shape.rowMajor_val_two, Shape.rowMajor_val_three]
    rfl
  · refine extractStridedSlice_apply _ _ _ _ _ fun a => ?_
    match a with
    | ⟨0, _⟩ => show i.val * 16 + k.val = 0 + (i.val * 16 + k.val); omega
    | ⟨1, _⟩ => show o.val = 0 + o.val; omega

/-- The log-determinant's weights: the last row of the 8193-row matrix. -/
theorem v6_apply (c : Dev nD) (u : Fin 1) (o : Fin 1024) :
    (V m c main_v6 : S1x1024.Idx → EReal) (ix2 u o)
      = m ((c : Thread nD τ).loc main_arg9) (ix2 (⟨8192, by decide⟩ : Fin 8193) o) := by
  have e : (V m c main_v6 : S1x1024.Idx → EReal)
      = extractStridedSlice S1x1024 ![8192, 0] (m ((c : Thread nD τ).loc main_arg9)) slices_S8193x1024_S1x1024_8192_0 := by
    dsimp only [Gen.V, Gen.hostOps0]; after_results; all_goals rfl
  have hu : u.val = 0 := by omega
  rw [e]
  refine extractStridedSlice_apply _ _ _ _ _ fun a => ?_
  match a with
  | ⟨0, _⟩ => show 8192 = 8192 + u.val; omega
  | ⟨1, _⟩ => show o.val = 0 + o.val; omega

/-! ## Where the blocks sit -/

/-- The grid has sixteen points. -/
theorem pt_lt (t : Fin cfg0.N) : t.val < 16 := lt_of_lt_of_eq t.isLt N_0

/-- At grid point t the input's block and the result's block are block t along the rows; every other window's
    block is block 0 on every axis, its whole array. Decided over the sixteen points. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = 0 ∧ win0_9.index t (1 : Fin 3) = 0 ∧ win0_9.index t (2 : Fin 3) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0) :=
  (by decide +kernel : ∀ t : Fin grid0.N, _)

/-! ## The blocks a grid point loads, at their literal shapes -/

/-- 512 rows of the input. -/
abbrev rowsBlk (c : Dev nD) (t : Fin cfg0.N) : Vec Ideal S512x512 .f32 := iblk m c 0 t
/-- The first layer's weights. -/
abbrev w1Blk (c : Dev nD) (t : Fin cfg0.N) : Vec Ideal S512x8 .f32 := iblk m c 1 t
/-- The first layer's bias, a one-row matrix. -/
abbrev b1Blk (c : Dev nD) (t : Fin cfg0.N) : Vec Ideal S1x8 .f32 := iblk m c 2 t
/-- The second layer's weights. -/
abbrev w2Blk (c : Dev nD) (t : Fin cfg0.N) : Vec Ideal S8x8 .f32 := iblk m c 3 t
/-- The second layer's bias, a one-row matrix. -/
abbrev b2Blk (c : Dev nD) (t : Fin cfg0.N) : Vec Ideal S1x8 .f32 := iblk m c 4 t
/-- The third layer's weights. -/
abbrev w3Blk (c : Dev nD) (t : Fin cfg0.N) : Vec Ideal S8x512 .f32 := iblk m c 5 t
/-- The third layer's bias, a one-row matrix. -/
abbrev b3Blk (c : Dev nD) (t : Fin cfg0.N) : Vec Ideal S1x512 .f32 := iblk m c 6 t
/-- The centres, basis-major. -/
abbrev ctrBlk (c : Dev nD) (t : Fin cfg0.N) : Vec Ideal S16x512 .f32 := iblk m c 7 t
/-- The widths, basis-major. -/
abbrev widBlk (c : Dev nD) (t : Fin cfg0.N) : Vec Ideal S16x512 .f32 := iblk m c 8 t
/-- The output weights of the basis values, basis-major. -/
abbrev woutBlk (c : Dev nD) (t : Fin cfg0.N) : Vec Ideal S16x512x1024 .bf16 := iblk m c 9 t
/-- The output weights of the log-determinant, a one-row matrix. -/
abbrev wldBlk (c : Dev nD) (t : Fin cfg0.N) : Vec Ideal S1x1024 .f32 := iblk m c 10 t
/-- The output bias, a one-row matrix. -/
abbrev boutBlk (c : Dev nD) (t : Fin cfg0.N) : Vec Ideal S1x1024 .f32 := iblk m c 11 t

/-! ## Each block, entry by entry, in terms of the argument arrays -/

/-- Row p of point t's input block is row 512·t + p of the input. -/
theorem rowsBlk_apply (c : Dev nD) (t : Fin cfg0.N) (p i : Fin 512) :
    rowsBlk m c t (ix2 p i) = m ((c : Thread nD τ).loc main_arg0)
      (ix2 (⟨t.val * 512 + p.val, by have := pt_lt t; have := p.isLt; omega⟩ : Fin 8192) i) := by
  obtain ⟨⟨e0, e1⟩, -⟩ := idx_facts t
  refine Eq.trans ?_ (congrFun (V_main_arg0 m c) _)
  show V m c main_arg0 (((cfg0.win 0).blk t).view.emb (ix2 p i)) = V m c main_arg0 _
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 512 + 1 * i.val = i.val; omega

/-- The first layer's weights, whole. -/
theorem w1Blk_apply (c : Dev nD) (t : Fin cfg0.N) (k : Fin 512) (j : Fin 8) :
    w1Blk m c t (ix2 k j) = m ((c : Thread nD τ).loc main_arg1) (ix2 k j) := by
  obtain ⟨-, ⟨e0, e1⟩, -⟩ := idx_facts t
  refine Eq.trans ?_ (congrFun (V_main_arg1 m c) _)
  show V m c main_arg1 (((cfg0.win 1).blk t).view.emb (ix2 k j)) = V m c main_arg1 (ix2 k j)
  refine congrArg _ (funext fun a => Fin.ext ?_)
  match a with
  | ⟨0, _⟩ => show win0_1.index t (0 : Fin 2) * 512 + 1 * k.val = k.val; omega
  | ⟨1, _⟩ => show win0_1.index t (1 : Fin 2) * 8 + 1 * j.val = j.val; omega

/-- The first layer's bias. -/
theorem b1Blk_apply (c : Dev nD) (t : Fin cfg0.N) (u : Fin 1) (j : Fin 8) :
    b1Blk m c t (ix2 u j) = m ((c : Thread nD τ).loc main_arg2) (ix1 j) := by
  obtain ⟨-, -, ⟨e0, e1⟩, -⟩ := idx_facts t
  refine Eq.trans ?_ (v10_apply m c u j)
  show V m c main_v10 (((cfg0.win 2).blk t).view.emb (ix2 u j)) = V m c main_v10 (ix2 u j)
  refine congrArg _ (funext fun a => Fin.ext ?_)
  match a with
  | ⟨0, _⟩ => show win0_2.index t (0 : Fin 2) * 1 + 1 * u.val = u.val; omega
  | ⟨1, _⟩ => show win0_2.index t (1 : Fin 2) * 8 + 1 * j.val = j.val; omega

/-- The second layer's weights, whole. -/
theorem w2Blk_apply (c : Dev nD) (t : Fin cfg0.N) (k j : Fin 8) :
    w2Blk m c t (ix2 k j) = m ((c : Thread nD τ).loc main_arg3) (ix2 k j) := by
  obtain ⟨-, -, -, ⟨e0, e1⟩, -⟩ := idx_facts t
  refine Eq.trans ?_ (congrFun (V_main_arg3 m c) _)
  show V m c main_arg3 (((cfg0.win 3).blk t).view.emb (ix2 k j)) = V m c main_arg3 (ix2 k j)
  refine congrArg _ (funext fun a => Fin.ext ?_)
  match a with
  | ⟨0, _⟩ => show win0_3.index t (0 : Fin 2) * 8 + 1 * k.val = k.val; omega
  | ⟨1, _⟩ => show win0_3.index t (1 : Fin 2) * 8 + 1 * j.val = j.val; omega

/-- The second layer's bias. -/
theorem b2Blk_apply (c : Dev nD) (t : Fin cfg0.N) (u : Fin 1) (j : Fin 8) :
    b2Blk m c t (ix2 u j) = m ((c : Thread nD τ).loc main_arg4) (ix1 j) := by
  obtain ⟨-, -, -, -, ⟨e0, e1⟩, -⟩ := idx_facts t
  refine Eq.trans ?_ (v11_apply m c u j)
  show V m c main_v11 (((cfg0.win 4).blk t).view.emb (ix2 u j)) = V m c main_v11 (ix2 u j)
  refine congrArg _ (funext fun a => Fin.ext ?_)
  match a with
  | ⟨0, _⟩ => show win0_4.index t (0 : Fin 2) * 1 + 1 * u.val = u.val; omega
  | ⟨1, _⟩ => show win0_4.index t (1 : Fin 2) * 8 + 1 * j.val = j.val; omega

/-- The third layer's weights, whole. -/
theorem w3Blk_apply (c : Dev nD) (t : Fin cfg0.N) (k : Fin 8) (i : Fin 512) :
    w3Blk m c t (ix2 k i) = m ((c : Thread nD τ).loc main_arg5) (ix2 k i) := by
  obtain ⟨-, -, -, -, -, ⟨e0, e1⟩, -⟩ := idx_facts t
  refine Eq.trans ?_ (congrFun (V_main_arg5 m c) _)
  show V m c main_arg5 (((cfg0.win 5).blk t).view.emb (ix2 k i)) = V m c main_arg5 (ix2 k i)
  refine congrArg _ (funext fun a => Fin.ext ?_)
  match a with
  | ⟨0, _⟩ => show win0_5.index t (0 : Fin 2) * 8 + 1 * k.val = k.val; omega
  | ⟨1, _⟩ => show win0_5.index t (1 : Fin 2) * 512 + 1 * i.val = i.val; omega

/-- The third layer's bias. -/
theorem b3Blk_apply (c : Dev nD) (t : Fin cfg0.N) (u : Fin 1) (i : Fin 512) :
    b3Blk m c t (ix2 u i) = m ((c : Thread nD τ).loc main_arg6) (ix1 i) := by
  obtain ⟨-, -, -, -, -, -, ⟨e0, e1⟩, -⟩ := idx_facts t
  refine Eq.trans ?_ (v12_apply m c u i)
  show V m c main_v12 (((cfg0.win 6).blk t).view.emb (ix2 u i)) = V m c main_v12 (ix2 u i)
  refine congrArg _ (funext fun a => Fin.ext ?_)
  match a with
  | ⟨0, _⟩ => show win0_6.index t (0 : Fin 2) * 1 + 1 * u.val = u.val; omega
  | ⟨1, _⟩ => show win0_6.index t (1 : Fin 2) * 512 + 1 * i.val = i.val; omega

/-- The centres: entry (k, i) of the block is the centre of basis k at feature i. -/
theorem ctrBlk_apply (c : Dev nD) (t : Fin cfg0.N) (k : Fin 16) (i : Fin 512) :
    ctrBlk m c t (ix2 k i) = m ((c : Thread nD τ).loc main_arg7) (ix2 i k) := by
  obtain ⟨-, -, -, -, -, -, -, ⟨e0, e1⟩, -⟩ := idx_facts t
  refine Eq.trans ?_ (v3_apply m c k i)
  show V m c main_v3 (((cfg0.win 7).blk t).view.emb (ix2 k i)) = V m c main_v3 (ix2 k i)
  refine congrArg _ (funext fun a => Fin.ext ?_)
  match a with
  | ⟨0, _⟩ => show win0_7.index t (0 : Fin 2) * 16 + 1 * k.val = k.val; omega
  | ⟨1, _⟩ => show win0_7.index t (1 : Fin 2) * 512 + 1 * i.val = i.val; omega

/-- The widths: entry (k, i) of the block is the width of basis k at feature i. -/
theorem widBlk_apply (c : Dev nD) (t : Fin cfg0.N) (k : Fin 16) (i : Fin 512) :
    widBlk m c t (ix2 k i) = width (m ((c : Thread nD τ).loc main_arg8) (ix2 i k)) := by
  obtain ⟨-, -, -, -, -, -, -, -, ⟨e0, e1⟩, -⟩ := idx_facts t
  refine Eq.trans ?_ (v4_apply m c k i)
  show V m c main_v4 (((cfg0.win 8).blk t).view.emb (ix2 k i)) = V m c main_v4 (ix2 k i)
  refine congrArg _ (funext fun a => Fin.ext ?_)
  match a with
  | ⟨0, _⟩ => show win0_8.index t (0 : Fin 2) * 16 + 1 * k.val = k.val; omega
  | ⟨1, _⟩ => show win0_8.index t (1 : Fin 2) * 512 + 1 * i.val = i.val; omega

/-- The basis values' output weights: entry (k, i, o) of the block is row i·16 + k of the 8193-row matrix. -/
theorem woutBlk_apply (c : Dev nD) (t : Fin cfg0.N) (k : Fin 16) (i : Fin 512) (o : Fin 1024) :
    woutBlk m c t (ix3 k i o) = m ((c : Thread nD τ).loc main_arg9)
      (ix2 (⟨i.val * 16 + k.val, by have := i.isLt; have := k.isLt; omega⟩ : Fin 8193) o) := by
  obtain ⟨-, -, -, -, -, -, -, -, -, ⟨e0, e1, e2⟩, -⟩ := idx_facts t
  refine Eq.trans ?_ (v9_apply m c k i o)
  show V m c main_v9 (((cfg0.win 9).blk t).view.emb (ix3 k i o)) = V m c main_v9 (ix3 k i o)
  refine congrArg _ (funext fun a => Fin.ext ?_)
  match a with
  | ⟨0, _⟩ => show win0_9.index t (0 : Fin 3) * 16 + 1 * k.val = k.val; omega
  | ⟨1, _⟩ => show win0_9.index t (1 : Fin 3) * 512 + 1 * i.val = i.val; omega
  | ⟨2, _⟩ => show win0_9.index t (2 : Fin 3) * 1024 + 1 * o.val = o.val; omega

/-- The log-determinant's output weights: row 8192 of the 8193-row matrix. -/
theorem wldBlk_apply (c : Dev nD) (t : Fin cfg0.N) (u : Fin 1) (o : Fin 1024) :
    wldBlk m c t (ix2 u o) = m ((c : Thread nD τ).loc main_arg9) (ix2 (⟨8192, by decide⟩ : Fin 8193) o) := by
  obtain ⟨-, -, -, -, -, -, -, -, -, -, ⟨e0, e1⟩, -⟩ := idx_facts t
  refine Eq.trans ?_ (v6_apply m c u o)
  show V m c main_v6 (((cfg0.win 10).blk t).view.emb (ix2 u o)) = V m c main_v6 (ix2 u o)
  refine congrArg _ (funext fun a => Fin.ext ?_)
  match a with
  | ⟨0, _⟩ => show win0_10.index t (0 : Fin 2) * 1 + 1 * u.val = u.val; omega
  | ⟨1, _⟩ => show win0_10.index t (1 : Fin 2) * 1024 + 1 * o.val = o.val; omega

/-- The output bias. -/
theorem boutBlk_apply (c : Dev nD) (t : Fin cfg0.N) (u : Fin 1) (o : Fin 1024) :
    boutBlk m c t (ix2 u o) = m ((c : Thread nD τ).loc main_arg10) (ix1 o) := by
  obtain ⟨-, -, -, -, -, -, -, -, -, -, -, ⟨e0, e1⟩, -⟩ := idx_facts t
  refine Eq.trans ?_ (v13_apply m c u o)
  show V m c main_v13 (((cfg0.win 11).blk t).view.emb (ix2 u o)) = V m c main_v13 (ix2 u o)
  refine congrArg _ (funext fun a => Fin.ext ?_)
  match a with
  | ⟨0, _⟩ => show win0_11.index t (0 : Fin 2) * 1 + 1 * u.val = u.val; omega
  | ⟨1, _⟩ => show win0_11.index t (1 : Fin 2) * 1024 + 1 * o.val = o.val; omega

/-! ## What a grid point stores -/

/-- What grid point t stores: the kernel's body applied to the blocks it loaded. -/
abbrev stored (c : Dev nD) (t : Fin cfg0.N) : Vec Ideal S512x1024 .f32 :=
  out0_12 (rowsBlk m c t) (w1Blk m c t) (b1Blk m c t) (w2Blk m c t) (b2Blk m c t) (w3Blk m c t) (b3Blk m c t)
    (ctrBlk m c t) (widBlk m c t) (woutBlk m c t) (wldBlk m c t) (boutBlk m c t)

/-- Entry (p, q) of what point t stores is entry (512·t + p, q) of `G`: the row function of the input's row
    512·t + p and of the weight arrays. -/
theorem stored_apply (c : Dev nD) (t : Fin cfg0.N) (p : Fin 512) (q : Fin 1024) :
    stored m c t (ix2 p q)
      = G m c (ix2 (⟨t.val * 512 + p.val, by have := pt_lt t; have := p.isLt; omega⟩ : Fin 8192) q) := by
  refine (Point.out_apply (rowsBlk m c t) (w1Blk m c t) (b1Blk m c t) (w2Blk m c t) (b2Blk m c t) (w3Blk m c t)
    (b3Blk m c t) (ctrBlk m c t) (widBlk m c t) (woutBlk m c t) (wldBlk m c t) (boutBlk m c t) p q).trans ?_
  simp only [rowsBlk_apply, w1Blk_apply, b1Blk_apply, w2Blk_apply, b2Blk_apply, w3Blk_apply, b3Blk_apply,
    ctrBlk_apply, widBlk_apply, woutBlk_apply, wldBlk_apply, boutBlk_apply]
  rfl

/-- What point t writes back is block t of `G`. -/
theorem flushed_eq (c : Dev nD) (t : Fin cfg0.N) :
    (dats m 0 c).flushed 12 t = ((cfg0.win 12).blk t).view.read (Elt Ideal) (G m c) := by
  rw [Value.flushed12]
  obtain ⟨-, -, -, -, -, -, -, -, -, -, -, -, e0, e1⟩ := idx_facts t
  refine funext fun (y : S512x1024.Idx) => ?_
  have hy : y = ix2 (y 0) (y 1) := eq_ix2 y
  have hp : (y 0).val < 512 := idx2_lt0 y
  have ht := pt_lt t
  have hemb : ((cfg0.win 12).blk t).view.emb y
      = ix2 (⟨t.val * 512 + (y 0).val, by omega⟩ : Fin 8192) (y 1) := by
    funext a; apply Fin.ext
    match a with
    | ⟨0, _⟩ => show win0_12.index t (0 : Fin 2) * 512 + 1 * (y 0).val = t.val * 512 + (y 0).val; omega
    | ⟨1, _⟩ => show win0_12.index t (1 : Fin 2) * 1024 + 1 * (y 1).val = (y 1).val; omega
  show stored m c t y = G m c (((cfg0.win 12).blk t).view.emb y)
  refine Eq.trans ?_ (congrArg (G m c) hemb.symm)
  exact (congrArg (stored m c t) hy).trans (stored_apply m c t (y 0) (y 1))

/-! ## The sixteen blocks cover the array -/

/-- An index of the result is in point t's block iff each coordinate is in the block's range on its axis. -/
theorem mem_blk (t : Fin cfg0.N) (i : S8192x1024.Idx) :
    i ∈ ((cfg0.win 12).blk t).view.set ↔ ∀ a : Fin 2, win0_12.index t a * S512x1024.size a ≤ (i a).val
      ∧ (i a).val < win0_12.index t a * S512x1024.size a + S512x1024.size a := by
  show i ∈ ((View.whole main_v14).slice (win0_12.rect t)).set ↔ _
  rw [View.set_slice_whole, Rect.mem_set_unit]
  exact Iff.rfl

/-- Row r of the result is written by point r / 512. -/
theorem cover (i : S8192x1024.Idx) :
    ∃ t : Fin cfg0.N, (cfg0.win 12).flush t = true ∧ i ∈ ((cfg0.win 12).blk t).view.set := by
  have h0 : (i 0).val < 8192 := idx2_lt0 i
  have h1 : (i 1).val < 1024 := idx2_lt1 i
  have hN : (i 0).val / 512 < cfg0.N := lt_of_lt_of_eq (by omega : (i 0).val / 512 < 16) N_0.symm
  obtain ⟨-, -, -, -, -, -, -, -, -, -, -, -, e0, e1⟩ := idx_facts ⟨(i 0).val / 512, hN⟩
  have e0' : win0_12.index ⟨(i 0).val / 512, hN⟩ (0 : Fin 2) = (i 0).val / 512 := e0
  refine ⟨⟨(i 0).val / 512, hN⟩, flush0_12 _, ?_⟩
  rw [mem_blk]
  intro a
  match a with
  | ⟨0, _⟩ =>
    show win0_12.index ⟨(i 0).val / 512, hN⟩ (0 : Fin 2) * 512 ≤ (i 0).val
      ∧ (i 0).val < win0_12.index ⟨(i 0).val / 512, hN⟩ (0 : Fin 2) * 512 + 512
    omega
  | ⟨1, _⟩ =>
    show win0_12.index ⟨(i 0).val / 512, hN⟩ (1 : Fin 2) * 1024 ≤ (i 1).val
      ∧ (i 1).val < win0_12.index ⟨(i 0).val / 512, hN⟩ (1 : Fin 2) * 1024 + 1024
    omega

/-- After the run the output window's array is `G`. -/
theorem final (c : Dev nD) : (dats m 0 c).arrAt 12 cfg0.N = G m c :=
  (dats m 0 c).arrAt_eq_of_cover 12 (G m c) (fun t _ => flushed_eq m c t) cover

/-- The kernel's run with its result named: every weakly fair execution ends with the result at `G` and the
    arguments unchanged. -/
theorem run : θ_run defs (onTc (τ := τ) (main (F := Ideal))) ⟨m, fun _ => 0, ρ⟩ fun r => ∀ c : Dev nD,
      r.2.mem ((c : Thread nD τ).loc main_v14) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Whole

end
-- ==== Proof.RefPoint.lean ====
/-
  The reference's result, read at an index: entry (b, o) is the row function of Proof/Spec.lean applied to row b of
  the input and to the weights, as one contraction over all 8193 features.
-/
import proofs.«142920_j60722247631487_1_alg».proof.Proof.Spec
import proofs.«142920_j60722247631487_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.ReferenceIdeal.Point

open Cert.ReferenceIdeal Cert.ReferenceIdeal.Read Cert.MetricRbf

/-! ## Indices by coordinates -/

/-- A rank-1 index with the given coordinate value is `ix1` of it. -/
theorem eq_ix1_of {n : Nat} (f : (⟨1, ![n]⟩ : Shape).Idx) (a : Fin n) (h0 : (f 0).val = a.val) : f = ix1 a :=
  funext fun d => Fin.ext (by match d with | ⟨0, _⟩ => exact h0)

/-- A rank-2 index with the given coordinate values is `ix2` of them. -/
theorem eq_ix2_of {n0 n1 : Nat} (f : (⟨2, ![n0, n1]⟩ : Shape).Idx) (a : Fin n0) (c : Fin n1)
    (h0 : (f 0).val = a.val) (h1 : (f 1).val = c.val) : f = ix2 a c :=
  funext fun d => Fin.ext (by match d with | ⟨0, _⟩ => exact h0 | ⟨1, _⟩ => exact h1)

/-- A rank-3 index with the given coordinate values is `ix3` of them. -/
theorem eq_ix3_of {n0 n1 n2 : Nat} (f : (⟨3, ![n0, n1, n2]⟩ : Shape).Idx) (a : Fin n0) (c : Fin n1) (e : Fin n2)
    (h0 : (f 0).val = a.val) (h1 : (f 1).val = c.val) (h2 : (f 2).val = e.val) : f = ix3 a c e :=
  funext fun d => Fin.ext (by match d with | ⟨0, _⟩ => exact h0 | ⟨1, _⟩ => exact h1 | ⟨2, _⟩ => exact h2)

section Row

variable (X : (⟨S8192x512, .f32⟩ : BufTy).Contents (Elt Ideal)) (W1 : (⟨S512x8, .f32⟩ : BufTy).Contents (Elt Ideal))
  (B1 : (⟨S8, .f32⟩ : BufTy).Contents (Elt Ideal)) (W2 : (⟨S8x8, .f32⟩ : BufTy).Contents (Elt Ideal))
  (B2 : (⟨S8, .f32⟩ : BufTy).Contents (Elt Ideal)) (W3 : (⟨S8x512, .f32⟩ : BufTy).Contents (Elt Ideal))
  (B3 : (⟨S512, .f32⟩ : BufTy).Contents (Elt Ideal)) (C L : (⟨S512x16, .f32⟩ : BufTy).Contents (Elt Ideal))
  (WO : (⟨S8193x1024, .f32⟩ : BufTy).Contents (Elt Ideal)) (BO : (⟨S1024, .f32⟩ : BufTy).Contents (Elt Ideal))
  (b : Fin 8192)

/-! ## The first hidden layer -/

/-- The first layer before its activation, at (b, j): row b against column j of the first weight matrix, plus the bias. -/
theorem v3_apply (j : Fin 8) :
    val_main_v3 (F := Ideal) X W1 B1 (ix2 b j) = (∑ k : Fin 512, X (ix2 b k) * W1 (ix2 k j)) + B1 (ix1 j) := by
  have el : ∀ k, lidx_main_v0 (ix2 b j) k = ix2 b k := fun k => eq_ix2_of _ _ _ rfl rfl
  have er : ∀ k, ridx_main_v0 (ix2 b j) k = ix2 k j := fun k => eq_ix2_of _ _ _ rfl rfl
  have eb : idx_main_v1 (idx_main_v2 (ix2 b j)) = ix1 j := eq_ix1_of _ _ rfl
  rw [val_main_v3_apply, val_main_v0_apply, val_main_v2_apply, val_main_v1_apply, eb]
  simp only [el, er]
  rfl

/-- With the logistic function spelled as the quotient 1 / (1 + exp (−v)), the activated first layer is `hid1`. -/
theorem v4_apply (j : Fin 8) :
    val_main_v4 (F := Ideal) X W1 B1 (ix2 b j)
      = hid1 (fun i => X (ix2 b i)) (fun k j => W1 (ix2 k j)) (fun j => B1 (ix1 j)) j := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, v3_apply]
  simp only [Ideal.mulf_def, Ideal.hostDivf_def, Ideal.ofBits_def, Ideal.ofBits_one_f32, Ideal.addf_def,
    Ideal.hostUnary_exp_def, Ideal.hostNegf_def, Ideal.negf_def]
  rfl

/-! ## The second hidden layer -/

/-- The second layer before its activation: the first hidden layer against column j of the second weight matrix, plus the bias. -/
theorem v8_apply (j : Fin 8) :
    val_main_v8 (F := Ideal) X W1 B1 W2 B2 (ix2 b j)
      = (∑ k : Fin 8, hid1 (fun i => X (ix2 b i)) (fun k j => W1 (ix2 k j)) (fun j => B1 (ix1 j)) k * W2 (ix2 k j))
        + B2 (ix1 j) := by
  have el : ∀ k, lidx_main_v5 (ix2 b j) k = ix2 b k := fun k => eq_ix2_of _ _ _ rfl rfl
  have er : ∀ k, ridx_main_v5 (ix2 b j) k = ix2 k j := fun k => eq_ix2_of _ _ _ rfl rfl
  have eb : idx_main_v6 (idx_main_v7 (ix2 b j)) = ix1 j := eq_ix1_of _ _ rfl
  rw [val_main_v8_apply, val_main_v5_apply, val_main_v7_apply, val_main_v6_apply, eb]
  simp only [el, er, v4_apply]
  rfl

/-- The activated second layer is `hid2`. -/
theorem v9_apply (j : Fin 8) :
    val_main_v9 (F := Ideal) X W1 B1 W2 B2 (ix2 b j)
      = hid2 (fun i => X (ix2 b i)) (fun k j => W1 (ix2 k j)) (fun j => B1 (ix1 j)) (fun k j => W2 (ix2 k j))
          (fun j => B2 (ix1 j)) j := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply, v8_apply]
  simp only [Ideal.mulf_def, Ideal.hostDivf_def, Ideal.ofBits_def, Ideal.ofBits_one_f32, Ideal.addf_def,
    Ideal.hostUnary_exp_def, Ideal.hostNegf_def, Ideal.negf_def]
  rfl

/-! ## The third layer and the metric -/

/-- The third layer before `softplus`: the second hidden layer against column i of the third weight matrix, plus the bias. -/
theorem v13_apply (i : Fin 512) :
    val_main_v13 (F := Ideal) X W1 B1 W2 B2 W3 B3 (ix2 b i)
      = (∑ k : Fin 8, hid2 (fun i => X (ix2 b i)) (fun k j => W1 (ix2 k j)) (fun j => B1 (ix1 j))
            (fun k j => W2 (ix2 k j)) (fun j => B2 (ix1 j)) k * W3 (ix2 k i))
        + B3 (ix1 i) := by
  have el : ∀ k, lidx_main_v10 (ix2 b i) k = ix2 b k := fun k => eq_ix2_of _ _ _ rfl rfl
  have er : ∀ k, ridx_main_v10 (ix2 b i) k = ix2 k i := fun k => eq_ix2_of _ _ _ rfl rfl
  have eb : idx_main_v11 (idx_main_v12 (ix2 b i)) = ix1 i := eq_ix1_of _ _ rfl
  rw [val_main_v13_apply, val_main_v10_apply, val_main_v12_apply, val_main_v11_apply, eb]
  simp only [el, er, v9_apply]
  rfl

/-- `softplus`, spelled with |v − 0| behind a comparison of a value with itself that always answers "equal", plus the small constant: the metric. -/
theorem v16_apply (i : Fin 512) :
    val_main_v16 (F := Ideal) X W1 B1 W2 B2 W3 B3 (ix2 b i)
      = metric (fun i => X (ix2 b i)) (fun k j => W1 (ix2 k j)) (fun j => B1 (ix1 j)) (fun k j => W2 (ix2 k j))
          (fun j => B2 (ix1 j)) (fun k i => W3 (ix2 k i)) (fun i => B3 (ix1 i)) i := by
  rw [val_main_v16_apply, val_main_v15_apply, val_main_cst_apply, val_main_v14_apply, val_main_call2_v4_apply,
    val_main_call2_v6_apply, val_main_call2_v5_apply, val_main_call2_v11_apply, val_main_call2_v1_apply,
    val_main_call2_v0_apply, val_main_call2_v10_apply, val_main_call2_v9_apply, val_main_call2_v8_apply,
    val_main_call2_v7_apply, val_main_call2_v3_apply, val_main_call2_v2_apply, val_main_call2_cst_apply, v13_apply]
  simp only [Ideal.addf_def, Ideal.subf_def, Ideal.maximumf_def, Ideal.ofBits_def, Ideal.ofBits_zero_f32,
    Ideal.hostUnary_exp_def, Ideal.hostUnary_log1p_def, Ideal.hostNegf_def, Ideal.negf_def, Ideal.hostAbsf_def,
    Ideal.absf_def, Ideal.cmpf_def]
  rw [softplus_of_neg]
  rfl

/-! ## The warped feature -/

/-- The input times the square root of the metric: the warped feature. -/
theorem v18_apply (i : Fin 512) :
    val_main_v18 (F := Ideal) X W1 B1 W2 B2 W3 B3 (ix2 b i)
      = warped (fun i => X (ix2 b i)) (fun k j => W1 (ix2 k j)) (fun j => B1 (ix1 j)) (fun k j => W2 (ix2 k j))
          (fun j => B2 (ix1 j)) (fun k i => W3 (ix2 k i)) (fun i => B3 (ix1 i)) i := by
  rw [val_main_v18_apply, val_main_v17_apply, v16_apply]
  rfl

/-! ## Widths, and the basis tensor -/

/-- The exponential of a logarithmic width plus the small constant, whatever the leading unit coordinate. -/
theorem v22_apply (a : Fin 1) (i : Fin 512) (k : Fin 16) :
    val_main_v22 (F := Ideal) L (ix3 a i k) = width (L (ix2 i k)) := by
  have e : idx_main_v20 (ix3 a i k) = ix2 i k := eq_ix2_of _ _ _ rfl rfl
  rw [val_main_v22_apply, val_main_v20_apply, val_main_v19_apply, val_main_v21_apply, val_main_cst_0_apply, e]
  rfl

/-- Entry (b, i, k) of the basis tensor: basis function k of warped feature i, its centre and width read from the tables at (i, k). -/
theorem v33_apply (i : Fin 512) (k : Fin 16) :
    val_main_v33 (F := Ideal) X W1 B1 W2 B2 W3 B3 C L (ix3 b i k)
      = rbf (warped (fun i => X (ix2 b i)) (fun k j => W1 (ix2 k j)) (fun j => B1 (ix1 j)) (fun k j => W2 (ix2 k j))
              (fun j => B2 (ix1 j)) (fun k i => W3 (ix2 k i)) (fun i => B3 (ix1 i)) i)
          (C (ix2 i k)) (width (L (ix2 i k))) := by
  have ez : idx_main_v23 (idx_main_v25 (ix3 b i k)) = ix2 b i := eq_ix2_of _ _ _ rfl rfl
  have ec : idx_main_v24 (idx_main_v26 (ix3 b i k)) = ix2 i k := eq_ix2_of _ _ _ rfl rfl
  have ew : idx_main_v28 (ix3 b i k) = ix3 (⟨0, Nat.one_pos⟩ : Fin 1) i k := eq_ix3_of _ _ _ _ rfl rfl rfl
  rw [val_main_v33_apply, val_main_v32_apply, val_main_v31_apply, val_main_cst_1_apply, val_main_v30_apply,
    val_main_v29_apply, val_main_v27_apply, val_main_v25_apply, val_main_v23_apply, ez, v18_apply,
    val_main_v26_apply, val_main_v24_apply, ec, val_main_v28_apply, ew, v22_apply]
  rfl

/-- Column `j` of the reshaped basis tensor is basis `j % 16` of feature `j / 16`. -/
theorem v34_apply (j : Fin 8192) :
    val_main_v34 (F := Ideal) X W1 B1 W2 B2 W3 B3 C L (ix2 b j)
      = rbf (warped (fun i => X (ix2 b i)) (fun k j => W1 (ix2 k j)) (fun j => B1 (ix1 j)) (fun k j => W2 (ix2 k j))
              (fun j => B2 (ix1 j)) (fun k i => W3 (ix2 k i)) (fun i => B3 (ix1 i)) ⟨j.val / 16, by omega⟩)
          (C (ix2 ⟨j.val / 16, by omega⟩ ⟨j.val % 16, Nat.mod_lt _ (by decide)⟩))
          (width (L (ix2 ⟨j.val / 16, by omega⟩ ⟨j.val % 16, Nat.mod_lt _ (by decide)⟩))) := by
  have hb := b.isLt
  have hj := j.isLt
  have e : idx_main_v34 (ix2 b j)
      = ix3 b (⟨j.val / 16, by omega⟩ : Fin 512) (⟨j.val % 16, Nat.mod_lt _ (by decide)⟩ : Fin 16) :=
    eq_ix3_of _ _ _ _ (by show (b.val * 8192 + j.val) / 8192 = b.val; omega)
      (by show (b.val * 8192 + j.val) / 16 % 512 = j.val / 16; omega)
      (by show (b.val * 8192 + j.val) % 16 = j.val % 16; omega)
  rw [val_main_v34_apply, e, v33_apply]

/-! ## The log-determinant -/

/-- Zero plus the sum over the features of the metric's logarithm: the log-determinant of row b. -/
theorem v36_apply :
    val_main_v36 (F := Ideal) X W1 B1 W2 B2 W3 B3 (ix1 b)
      = logdet (fun i => X (ix2 b i)) (fun k j => W1 (ix2 k j)) (fun j => B1 (ix1 j)) (fun k j => W2 (ix2 k j))
          (fun j => B2 (ix1 j)) (fun k i => W3 (ix2 k i)) (fun i => B3 (ix1 i)) := by
  have e : ∀ k, idx_main_v36 (ix1 b) k = ix2 b k := fun k => eq_ix2_of _ _ _ rfl rfl
  rw [val_main_v36_apply, val_main_cst_2_apply]
  simp only [e, val_main_v35_apply, v16_apply, Ideal.ofBits_def, Ideal.ofBits_zero_f32, Ideal.hostUnary_log_def]
  rfl

/-! ## The 8193 features side by side -/

/-- Column `k` of the concatenation is feature `k`: a basis value below 8192, the log-determinant at 8192. -/
theorem v38_apply (k : Fin 8193) :
    val_main_v38 (F := Ideal) X W1 B1 W2 B2 W3 B3 C L (ix2 b k)
      = feat (fun i => X (ix2 b i)) (fun k j => W1 (ix2 k j)) (fun j => B1 (ix1 j)) (fun k j => W2 (ix2 k j))
          (fun j => B2 (ix1 j)) (fun k i => W3 (ix2 k i)) (fun i => B3 (ix1 i)) (fun i k => C (ix2 i k))
          (fun i k => L (ix2 i k)) k := by
  unfold val_main_v38 feat
  by_cases h : k.val < 8192
  · rw [dif_pos h]
    exact (concatenate_pair_apply_left (1 : Fin S8192x8193.rank) _ _
      Gen.concatenates_S8192x8192_S8192x1_S8192x8193_d1 (ix2 b k) rfl (ix2 b (⟨k.val, h⟩ : Fin 8192))
      (fun d => by match d with | ⟨0, _⟩ => rfl | ⟨1, _⟩ => rfl)).trans
      (v34_apply X W1 B1 W2 B2 W3 B3 C L b ⟨k.val, h⟩)
  · rw [dif_neg h]
    have hk : 0 + 8192 = k.val := by have := k.isLt; omega
    have e : idx_main_v37 (ix2 b (⟨0, Nat.one_pos⟩ : Fin 1)) = ix1 b := eq_ix1_of _ _ rfl
    refine (concatenate_pair_apply_right (1 : Fin S8192x8193.rank) _ _
      Gen.concatenates_S8192x8192_S8192x1_S8192x8193_d1 (ix2 b k) rfl rfl (ix2 b (⟨0, Nat.one_pos⟩ : Fin 1))
      (fun d hd => by
        match d, hd with
        | ⟨0, _⟩, _ => rfl
        | ⟨1, _⟩, hd => exact absurd rfl hd) hk).trans ?_
    rw [val_main_v37_apply, e, v36_apply]

end Row

/-- Entry (b, o) of the reference's result, from its argument arrays. -/
theorem result_apply (X : (⟨S8192x512, .f32⟩ : BufTy).Contents (Elt Ideal)) (W1 : (⟨S512x8, .f32⟩ : BufTy).Contents (Elt Ideal))
    (B1 : (⟨S8, .f32⟩ : BufTy).Contents (Elt Ideal)) (W2 : (⟨S8x8, .f32⟩ : BufTy).Contents (Elt Ideal))
    (B2 : (⟨S8, .f32⟩ : BufTy).Contents (Elt Ideal)) (W3 : (⟨S8x512, .f32⟩ : BufTy).Contents (Elt Ideal))
    (B3 : (⟨S512, .f32⟩ : BufTy).Contents (Elt Ideal)) (C L : (⟨S512x16, .f32⟩ : BufTy).Contents (Elt Ideal))
    (WO : (⟨S8193x1024, .f32⟩ : BufTy).Contents (Elt Ideal)) (BO : (⟨S1024, .f32⟩ : BufTy).Contents (Elt Ideal))
    (b : Fin 8192) (o : Fin 1024) :
    val_main_v42 (F := Ideal) X W1 B1 W2 B2 W3 B3 C L WO BO (ix2 b o)
      = outFlat (fun i => X (ix2 b i)) (fun k j => W1 (ix2 k j)) (fun j => B1 (ix1 j)) (fun k j => W2 (ix2 k j))
          (fun j => B2 (ix1 j)) (fun k i => W3 (ix2 k i)) (fun i => B3 (ix1 i)) (fun i k => C (ix2 i k))
          (fun i k => L (ix2 i k)) (fun j o => WO (ix2 j o)) (fun o => BO (ix1 o)) o := by
  have el : ∀ k, lidx_main_v39 (ix2 b o) k = ix2 b k := fun k => eq_ix2_of _ _ _ rfl rfl
  have er : ∀ k, ridx_main_v39 (ix2 b o) k = ix2 k o := fun k => eq_ix2_of _ _ _ rfl rfl
  have eb : idx_main_v40 (idx_main_v41 (ix2 b o)) = ix1 o := eq_ix1_of _ _ rfl
  rw [val_main_v42_apply, val_main_v39_apply, val_main_v41_apply, val_main_v40_apply, eb]
  simp only [el, er, v38_apply]
  rfl

end Cert.ReferenceIdeal.Point

end
-- ==== Proof.lean ====
/-
  A metric-warped radial-basis layer: a small network turns each input row into a positive per-feature metric, the
  row is warped by the metric's square root and expanded over sixteen radial basis functions per feature, and the
  8192 basis values together with the warp's log-determinant are mapped linearly to 1024 outputs.

  The kernel works on blocks of 512 rows and never forms the 8193 features: for each of the sixteen basis functions
  it forms the 512 × 512 slab of basis values and contracts it with that basis function's 512 rows of the output
  weights (regrouped basis-major beforehand), adds the sixteen products one after the other, then the
  log-determinant times the last weight row, then the bias. The reference forms all 8193 features of every row and
  contracts them with the weight matrix once. On the extended reals both are the same finite sum of products in
  another order and grouping, and extended-real addition is commutative and associative without side condition, so
  the two results agree at every input; finiteness of the inputs is not used.

  Proof/Spec.lean states one row's computation in both groupings and the law between them; Proof/KernelPoint.lean
  reads the kernel's store at an entry of its block; Proof/Blocks.lean assembles the sixteen row blocks into one
  function of the argument arrays; Proof/RefPoint.lean reads the reference's result at an entry. Here the two are
  set side by side. The three run-and-keep claims are the programs' runs; the idealized kernel is the kernel's own
  text read over the extended reals, with nothing rewritten, so that claim is trivial.
-/
import proofs.«142920_j60722247631487_1_alg».proof.Defs
import proofs.«142920_j60722247631487_1_alg».proof.Proof.Gen.Kernel
import proofs.«142920_j60722247631487_1_alg».proof.Proof.Gen.Kernel.Skeleton
import proofs.«142920_j60722247631487_1_alg».proof.Proof.Gen.Kernel.Launch
import proofs.«142920_j60722247631487_1_alg».proof.Proof.Gen.Kernel.Points
import proofs.«142920_j60722247631487_1_alg».proof.Proof.Gen.Kernel.Frame
import proofs.«142920_j60722247631487_1_alg».proof.Proof.Gen.KernelIdeal
import proofs.«142920_j60722247631487_1_alg».proof.Proof.Gen.KernelIdeal.Skeleton
import proofs.«142920_j60722247631487_1_alg».proof.Proof.Gen.KernelIdeal.Launch
import proofs.«142920_j60722247631487_1_alg».proof.Proof.Gen.KernelIdeal.Points
import proofs.«142920_j60722247631487_1_alg».proof.Proof.Gen.KernelIdeal.Frame
import proofs.«142920_j60722247631487_1_alg».proof.Proof.Gen.ReferenceIdeal
import proofs.«142920_j60722247631487_1_alg».proof.Proof.Gen.Pre_finite_inputs
import proofs.«142920_j60722247631487_1_alg».proof.Proof.Gen.KernelIdeal.Value
import proofs.«142920_j60722247631487_1_alg».proof.Proof.Gen.ReferenceIdeal.Run
import proofs.«142920_j60722247631487_1_alg».proof.Proof.Gen.ReferenceIdeal.Read
import proofs.«142920_j60722247631487_1_alg».proof.Proof.Spec
import proofs.«142920_j60722247631487_1_alg».proof.Proof.KernelPoint
import proofs.«142920_j60722247631487_1_alg».proof.Proof.Blocks
import proofs.«142920_j60722247631487_1_alg».proof.Proof.RefPoint
import Idealize.ShloMosaic.Adequacy
import Idealize.ShloMosaic.Init

noncomputable section

namespace Cert.Proof

open Idealize.ShloMosaic Idealize.ShloMosaic.ValueIdx Idealize.SL.Sem Cert.Kernel

/-- The kernel as printed runs to completion and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its run is its operations one after the other, and it writes no argument. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the same array: entry (b, o) of the reference's result is the contraction of row b's 8193
    features, which regrouped basis function by basis function is entry (b, o) of the kernel's result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq]
  funext i
  obtain ⟨b, o, rfl⟩ : ∃ (b : Fin 8192) (o : Fin 1024), i = ix2 b o := ⟨i 0, i 1, eq_ix2 i⟩
  rw [Cert.ReferenceIdeal.Point.result_apply, ← Cert.MetricRbf.outByBasis_eq_outFlat,
    (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
